-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_

variable [Facts]

def fn_part1 {F : FTy → Type} [FloatOps F] (main_arg5 : FVec F S128 .f32) (main_arg6 : FVec F S3x128 .f32) (main_arg7 : FVec F S3 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3 .f32 := Host.absf main_arg7
  let main_cst_10 : FVec F S_ .f32 := constant S_ .f32 0x7F800000#32
  let main_v30 : FVec F S3 .f32 := broadcastInDim S3 ![] bcast_S_S3 main_cst_10
  let main_v31 : IVec S3 1 := cmpf .olt main_v29 main_v30
  let main_c_11 : IVec S_ 1 := constantI S_ 1 1#1
  let main_v32 : IVec S_ 1 := (fun x v => Host.reduce IntOp.andi x v reducesTo_S3_S_d0 h_S_) main_v31 main_c_11
  let main_v33 : IVec S_ 1 := andi main_v28 main_v32
  main_v33

def fn {F : FTy → Type} [FloatOps F] (main_arg0 : FVec F S50000x128 .f32) (main_arg1 : IVec S2x600000 32) (main_arg2 : FVec F S128x128 .f32) (main_arg3 : FVec F S128 .f32) (main_arg4 : FVec F S128x128 .f32) (main_arg5 : FVec F S128 .f32) (main_arg6 : FVec F S3x128 .f32) (main_arg7 : FVec F S3 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S2000x128 : Shape := ⟨2, ![2000, 128]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S1x3 : Shape := ⟨2, ![1, 3]⟩
abbrev S2000x1 : Shape := ⟨2, ![2000, 1]⟩
abbrev S128x3 : Shape := ⟨2, ![128, 3]⟩
abbrev S2000x3 : Shape := ⟨2, ![2000, 3]⟩

abbrev nBuf : Space → Nat
  | .hbm => 40
  | .vmem => 15
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128, .f32⟩
  | .hbm, ⟨7, _⟩ => ⟨S3, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S1x128, .f32⟩
  | .hbm, ⟨16, _⟩ => ⟨S50000x128, .f32⟩
  | .hbm, ⟨17, _⟩ => ⟨S_, .i32⟩
  | .hbm, ⟨18, _⟩ => ⟨S650000, .i32⟩
  | .hbm, ⟨19, _⟩ => ⟨S650000, .i1⟩
  | .hbm, ⟨20, _⟩ => ⟨S_, .i32⟩
  | .hbm, ⟨21, _⟩ => ⟨S650000, .i32⟩
  | .hbm, ⟨22, _⟩ => ⟨S650000, .i32⟩
  | .hbm, ⟨23, _⟩ => ⟨S650000, .i32⟩
  | .hbm, ⟨24, _⟩ => ⟨S650000x1, .i32⟩
  | .hbm, ⟨25, _⟩ => ⟨S650000x128, .f32⟩
  | .hbm, ⟨26, _⟩ => ⟨S_, .f32⟩
  | .hbm, ⟨27, _⟩ => ⟨S50000x128, .f32⟩
  | .hbm, ⟨28, _⟩ => ⟨S650000x1, .i32⟩
  | .hbm, ⟨29, _⟩ => ⟨S50000x128, .f32⟩
  | .hbm, ⟨30, _⟩ => ⟨S_, .f32⟩
  | .hbm, ⟨31, _⟩ => ⟨S650000, .f32⟩
  | .hbm, ⟨32, _⟩ => ⟨S_, .f32⟩
  | .hbm, ⟨33, _⟩ => ⟨S50000, .f32⟩
  | .hbm, ⟨34, _⟩ => ⟨S650000x1, .i32⟩
  | .hbm, ⟨35, _⟩ => ⟨S50000, .f32⟩
  | .hbm, ⟨36, _⟩ => ⟨S50000x1, .f32⟩
  | .hbm, ⟨37, _⟩ => ⟨S1x128, .f32⟩
  | .hbm, ⟨38, _⟩ => ⟨S1x3, .f32⟩
  | .hbm, ⟨39, _⟩ => ⟨S3, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x1, .f32⟩
  | .local _ .vmem, ⟨9, _⟩ => ⟨S2000x1, .f32⟩
  | .local _ .vmem, ⟨10, _⟩ => ⟨S128x128, .f32⟩
  | .local _ .vmem, ⟨11, _⟩ => ⟨S1x128, .f32⟩
  | .local _ .vmem, ⟨12, _⟩ => ⟨S3x128, .f32⟩
  | .local _ .vmem, ⟨13, _⟩ => ⟨S1x3, .f32⟩
  | .local _ .vmem, ⟨14, _⟩ => ⟨S3, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_c_0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S3x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x3 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S3 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  shapeCasts_S50000_S50000x1 : S50000.ShapeCasts S50000x1
  shapeCasts_S3_S1x3 : S3.ShapeCasts S1x3
  inb_S3_S3_0 : ∀ a, (![0] : Fin 1 → Nat) a + S3.size a ≤ S3.size a
  h_S3 : 0 < S3.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  shapeCasts_S2000x128_S2000x128 : S2000x128.ShapeCasts S2000x128
  broadcasts_S2000x1_S2000x128 : S2000x1.Broadcasts S2000x128
  inb_S3x128_S3x128_0_0 : ∀ a, (![0, 0] : Fin 2 → Nat) a + S3x128.size a ≤ S3x128.size a
  h_S3x128 : 0 < S3x128.numel
  transposes_S3x128_p1_0_S128x3 : S3x128.Transposes [1, 0] S128x3
  inb_S1x3_S1x3_0_0 : ∀ a, (![0, 0] : Fin 2 → Nat) a + S1x3.size a ≤ S1x3.size a
  h_S1x3 : 0 < S1x3.numel
  shapeCasts_S1x3_S1x3 : S1x3.ShapeCasts S1x3
  broadcasts_S1x3_S2000x3 : S1x3.Broadcasts S2000x3
  reduces_S2000x3_S3 : S2000x3.Reduces [0] S3
  shapeCasts_S3_S3 : S3.ShapeCasts S3
  dot_S2000x128_S128x128_S2000x128_1_0_0_1_n_n_wf : DotDims.WF S2000x128 S128x128 S2000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S2000x128_S128x3_S2000x3_1_0_0_1_n_n_wf : DotDims.WF S2000x128 S128x3 S2000x3 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S3x128.size a ≤ S3x128.size a
  hwx1_4 : ∀ i : grid1.Coords, EltTy.bits .f32 = 32 ∨ (Rect.block (s := S3x128) S3x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x3.size a ≤ S1x3.size a
  hwx1_5 : ∀ i : grid1.Coords, EltTy.bits .f32 = 32 ∨ (Rect.block (s := S1x3) S1x3.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S3.size a ≤ S3.size a
  hwx1_6 : ∀ i : grid1.Coords, EltTy.bits .f32 = 32 ∨ (Rect.block (s := S3) S3.size (cc1_transform_6 i) (hinb1_6 i)).WholeWords (EltTy.packing .f32)

variable [Facts₀]

def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S2000x128_S128x3_S2000x3_1_0_0_1_n_n : DotDims S2000x128 S128x3 S2000x3 where
  lhsContracting := [1]
  rhsContracting := [0]
  lhsNonContracting := [0]
  rhsNonContracting := [1]
  lhsBatch := []
  rhsBatch := []
  wf := dot_S2000x128_S128x3_S2000x3_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v18) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S3x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S1x3.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v26) S3.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S3x128 : Shape := ⟨2, ![3, 128]⟩
abbrev S3 : Shape := ⟨1, ![3]⟩
abbrev S50000 : Shape := ⟨1, ![50000]⟩
abbrev S1x600000 : Shape := ⟨2, ![1, 600000]⟩
abbrev S600000 : Shape := ⟨1, ![600000]⟩
abbrev S650000 : Shape := ⟨1, ![650000]⟩
abbrev S1x128 : Shape := ⟨2, ![1, 128]⟩
abbrev S_ : Shape := ⟨0, ![]⟩
abbrev S650000x1 : Shape := ⟨2, ![650000, 1]⟩
abbrev S650000x128 : Shape := ⟨2, ![650000, 128]⟩
abbrev S50000x1 : Shape := ⟨2, ![50000, 1]⟩
abbrev S128x3 : Shape := ⟨2, ![128, 3]⟩
abbrev S50000x3 : Shape := ⟨2, ![50000, 3]⟩
abbrev S1x3 : Shape := ⟨2, ![1, 3]⟩

abbrev nBuf : Space → Nat
  | .hbm => 60
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S3x128, .f32⟩
  | .hbm, ⟨7, _⟩ => ⟨S3, .f32⟩
  | .hbm, ⟨8, _⟩ => ⟨S50000, .i32⟩
  | .hbm, ⟨9, _⟩ => ⟨S1x600000, .i32⟩
  | .hbm, ⟨10, _⟩ => ⟨S600000, .i32⟩
  | .hbm, ⟨11, _⟩ => ⟨S650000, .i32⟩
  | .hbm, ⟨12, _⟩ => ⟨S1x600000, .i32⟩
  | .hbm, ⟨13, _⟩ => ⟨S600000, .i32⟩
  | .hbm, ⟨14, _⟩ => ⟨S650000, .i32⟩
  | .hbm, ⟨15, _⟩ => ⟨S128x128, .f32⟩
  | .hbm, ⟨16, _⟩ => ⟨S50000x128, .f32⟩
  | .hbm, ⟨17, _⟩ => ⟨S1x128, .f32⟩
  | .hbm, ⟨18, _⟩ => ⟨S50000x128, .f32⟩
  | .hbm, ⟨19, _⟩ => ⟨S50000x128, .f32⟩
  | .hbm, ⟨20, _⟩ => ⟨S_, .i32⟩
  | .hbm, ⟨21, _⟩ => ⟨S650000, .i32⟩
  | .hbm, ⟨22, _⟩ => ⟨S650000, .i1⟩
  | .hbm, ⟨23, _⟩ => ⟨S_, .i32⟩
  | .hbm, ⟨24, _⟩ => ⟨S650000, .i32⟩
  | .hbm, ⟨25, _⟩ => ⟨S650000, .i32⟩
  | .hbm, ⟨26, _⟩ => ⟨S650000, .i32⟩
  | .hbm, ⟨27, _⟩ => ⟨S650000x1, .i32⟩
  | .hbm, ⟨28, _⟩ => ⟨S650000x128, .f32⟩
  | .hbm, ⟨29, _⟩ => ⟨S_, .f32⟩
  | .hbm, ⟨30, _⟩ => ⟨S50000x128, .f32⟩
  | .hbm, ⟨31, _⟩ => ⟨S650000x1, .i32⟩
  | .hbm, ⟨32, _⟩ => ⟨S50000x128, .f32⟩
  | .hbm, ⟨33, _⟩ => ⟨S_, .f32⟩
  | .hbm, ⟨34, _⟩ => ⟨S650000, .f32⟩
  | .hbm, ⟨35, _⟩ => ⟨S_, .f32⟩
  | .hbm, ⟨36, _⟩ => ⟨S50000, .f32⟩
  | .hbm, ⟨37, _⟩ => ⟨S650000x1, .i32⟩
  | .hbm, ⟨38, _⟩ => ⟨S50000, .f32⟩
  | .hbm, ⟨39, _⟩ => ⟨S_, .f32⟩
  | .hbm, ⟨40, _⟩ => ⟨S50000, .f32⟩
  | .hbm, ⟨41, _⟩ => ⟨S50000, .f32⟩
  | .hbm, ⟨42, _⟩ => ⟨S50000x1, .f32⟩
  | .hbm, ⟨43, _⟩ => ⟨S50000x128, .f32⟩
  | .hbm, ⟨44, _⟩ => ⟨S50000x128, .f32⟩
  | .hbm, ⟨45, _⟩ => ⟨S128x128, .f32⟩
  | .hbm, ⟨46, _⟩ => ⟨S50000x128, .f32⟩
  | .hbm, ⟨47, _⟩ => ⟨S1x128, .f32⟩
  | .hbm, ⟨48, _⟩ => ⟨S50000x128, .f32⟩
  | .hbm, ⟨49, _⟩ => ⟨S50000x128, .f32⟩
  | .hbm, ⟨50, _⟩ => ⟨S_, .f32⟩
  | .hbm, ⟨51, _⟩ => ⟨S50000x128, .f32⟩
  | .hbm, ⟨52, _⟩ => ⟨S50000x128, .f32⟩
  | .hbm, ⟨53, _⟩ => ⟨S128x3, .f32⟩
  | .hbm, ⟨54, _⟩ => ⟨S50000x3, .f32⟩
  | .hbm, ⟨55, _⟩ => ⟨S1x3, .f32⟩
  | .hbm, ⟨56, _⟩ => ⟨S50000x3, .f32⟩
  | .hbm, ⟨57, _⟩ => ⟨S50000x3, .f32⟩
  | .hbm, ⟨58, _⟩ => ⟨S_, .f32⟩
  | .hbm, ⟨59, _⟩ => ⟨S3, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_c : Ref sig .tc := ⟨.hbm, 20, rfl⟩
abbrev main_v12 : Ref sig .tc := ⟨.hbm, 21, rfl⟩
abbrev main_v13 : Ref sig .tc := ⟨.hbm, 22, rfl⟩
abbrev main_c_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_1 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_call0_cst : Ref sig .tc := ⟨.hbm, 50, rfl⟩
abbrev main_call0_v0 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_4 : Ref sig .tc := ⟨.hbm, 58, rfl⟩
abbrev main_v42 : Ref sig .tc := ⟨.hbm, 59, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S50000_S650000_d0 : Shape.Concatenates [S600000, S50000] S650000 0
  slices_S2x600000_S1x600000_1_0 : S2x600000.Slices ![1, 0] S1x600000
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S650000 : S_.BroadcastsInDim S650000 (![] : Fin 0 → Fin S650000.rank)
  bcast_S650000_S650000x1_0 : S650000.BroadcastsInDim S650000x1 (![0] : Fin 1 → Fin S650000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S3x128_S128x3_1_0 : S3x128.Transposes [1, 0] S128x3
  bcast_S3_S1x3_1 : S3.BroadcastsInDim S1x3 (![1] : Fin 1 → Fin S1x3.rank)
  bcast_S1x3_S50000x3_0_1 : S1x3.BroadcastsInDim S50000x3 (![0, 1] : Fin 2 → Fin S50000x3.rank)
  reducesTo_S50000x3_S3_d0 : S50000x3.ReducesTo [0] S3
  h_S_ : 0 < S_.numel
  dot_S50000x128_S128x128_S50000x128_1_0_0_1_n_n_wf : DotDims.WF S50000x128 S128x128 S50000x128 [1] [0] [0] [1] [] []
  gather_S50000x128_S650000x1_S650000x128_1_0_n_n_0_1_1128_wf : GatherDims.WF S50000x128 S650000x1 S650000x128 [1] [0] [] [0] [] 1 ![1, 128]
  scatter_S50000x128_S650000x1_S650000x128_1_0_0_1_wf : ScatterDims.WF S50000x128 S650000x1 S650000x128 [1] [0] [0] 1
  scatter_S50000_S650000x1_S650000_n_0_0_1_wf : ScatterDims.WF S50000 S650000x1 S650000 [] [0] [0] 1
  dot_S50000x128_S128x3_S50000x3_1_0_0_1_n_n_wf : DotDims.WF S50000x128 S128x3 S50000x3 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S650000x1_S650000x128_1_0_n_n_0_1_1128 : GatherDims S50000x128 S650000x1 S650000x128 where
  offsetDims := [1]
  collapsedSliceDims := [0]
  operandBatchingDims := []
  startIndicesBatchingDims := []
  startIndexMap := [0]
  indexVectorDim := 1
  sliceSizes := ![1, 128]
  wf := gather_S50000x128_S650000x1_S650000x128_1_0_n_n_0_1_1128_wf
def scatter_S50000x128_S650000x1_S650000x128_1_0_0_1 : ScatterDims S50000x128 S650000x1 S650000x128 where
  updateWindowDims := [1]
  insertedWindowDims := [0]
  scatterDimsToOperandDims := [0]
  indexVectorDim := 1
  wf := scatter_S50000x128_S650000x1_S650000x128_1_0_0_1_wf
def scatter_S50000_S650000x1_S650000_n_0_0_1 : ScatterDims S50000 S650000x1 S650000 where
  updateWindowDims := []
  insertedWindowDims := [0]
  scatterDimsToOperandDims := [0]
  indexVectorDim := 1
  wf := scatter_S50000_S650000x1_S650000_n_0_0_1_wf
def dot_S50000x128_S128x3_S50000x3_1_0_0_1_n_n : DotDims S50000x128 S128x3 S50000x3 where
  lhsContracting := [1]
  rhsContracting := [0]
  lhsNonContracting := [0]
  rhsNonContracting := [1]
  lhsBatch := []
  rhsBatch := []
  wf := dot_S50000x128_S128x3_S50000x3_1_0_0_1_n_n_wf

class Facts : Prop extends Facts₀ where

variable [Facts]
-- ==== Proof.Spec.lean ====
/-
  What both programs compute, written once over the extended reals.

  A graph layer with mean aggregation and a summed readout. Every node `r` first gets the
  affine image of its feature row, `y[r, j] = Σ_k x[r, k] · W[j, k] + b[j]` (`linAt`).
  Messages are gathered along the edges and added into their target nodes; that part is the
  same chain of operations in both programs and is never opened here. From a node's
  aggregated row `s` and its in-degree `cn` the readout of output `o` is

      Σ_k max(Σ_d (s[d] / max(cn, 1)) · W1[k, d] + b1[k], 0) · W2[o, k] + b2[o]      (`nodeOut`)

  and the result is the sum of that over all 50000 nodes, started from the zero word.
  One program adds the nodes in one sum; the other walks 25 tiles of 2000 consecutive nodes,
  adding each tile's sum to a running total. Addition of extended reals is associative and
  commutative, so the two totals agree (`chain_last`): no finiteness is needed, and the
  zero word is carried as a word, never evaluated.
-/
import Idealize.ShloMosaic.PureOps.Ideal
import Idealize.ShloMosaic.Lib.ValueIdx
import Mathlib.Logic.Equiv.Fin.Basic

noncomputable section

open scoped BigOperators

namespace Cert.Readout

open Idealize.ShloMosaic Idealize.ShloMosaic.ValueIdx

/-- The word of `+0.0` and of `1.0`, as the extended reals they denote. -/
abbrev zeroW : EReal := Ideal.ofBits .f32 0x00000000#32
abbrev oneW : EReal := Ideal.ofBits .f32 0x3F800000#32

/-- Feature `j` of node `r` after the affine map: row `r` of `x` against row `j` of `W`, plus the bias. -/
def linAt (x : FVec Ideal ⟨2, ![50000, 128]⟩ .f32) (W : FVec Ideal ⟨2, ![128, 128]⟩ .f32) (b : Fin 128 → EReal)
    (r : Fin 50000) (j : Fin 128) : EReal :=
  (∑ k : Fin 128, x (ix2 r k) * W (ix2 j k)) + b j

/-- The same for one tile of 2000 rows. -/
def linTileAt (x : FVec Ideal ⟨2, ![2000, 128]⟩ .f32) (W : FVec Ideal ⟨2, ![128, 128]⟩ .f32) (b : Fin 128 → EReal)
    (q : Fin 2000) (j : Fin 128) : EReal :=
  (∑ k : Fin 128, x (ix2 q k) * W (ix2 j k)) + b j

/-- One node's contribution to output `o`: its aggregated row `s` divided by its clamped in-degree, through the
    hidden layer with its rectifier, through the output layer. -/
def nodeOut (s : Fin 128 → EReal) (cn : EReal) (W1 : FVec Ideal ⟨2, ![128, 128]⟩ .f32) (b1 : Fin 128 → EReal)
    (W2 : FVec Ideal ⟨2, ![3, 128]⟩ .f32) (b2 : Fin 3 → EReal) (o : Fin 3) : EReal :=
  (∑ k : Fin 128, max ((∑ d : Fin 128, Ideal.div (s d) (max cn oneW) * W1 (ix2 k d)) + b1 k) zeroW * W2 (ix2 o k)) + b2 o

/-- Node `q` of tile `t`. -/
def nodeOf (t : Fin 25) (q : Fin 2000) : Fin 50000 :=
  ⟨2000 * t.val + q.val, by have := t.isLt; have := q.isLt; omega⟩

/-- The sum of `f` over the 2000 nodes of tile `t`. -/
def tileSum (f : Fin 50000 → EReal) (t : Fin 25) : EReal := ∑ q : Fin 2000, f (nodeOf t q)

/-- The tiles partition the nodes: summing tile by tile is summing over all nodes. -/
theorem sum_tiles (f : Fin 50000 → EReal) : ∑ t : Fin 25, tileSum f t = ∑ r : Fin 50000, f r := by
  unfold tileSum
  rw [← Fintype.sum_prod_type' (f := fun t q => f (nodeOf t q))]
  refine Fintype.sum_equiv (finProdFinEquiv (m := 25) (n := 2000)) _ _ fun p => ?_
  refine congrArg f (Fin.ext ?_)
  show 2000 * p.1.val + p.2.val = (finProdFinEquiv p).val
  rw [finProdFinEquiv_apply_val]; omega

/-- The running total after tile `n`: the start value plus tile 0, then one more tile each step. -/
def chain (z : EReal) (f : Fin 50000 → EReal) : (n : ℕ) → n < 25 → EReal
  | 0, h => z + tileSum f ⟨0, h⟩
  | n + 1, h => chain z f n (Nat.lt_of_succ_lt h) + tileSum f ⟨n + 1, h⟩

/-- The running total is the start value plus the tiles so far. -/
theorem chain_eq (z : EReal) (f : Fin 50000 → EReal) :
    ∀ (n : ℕ) (h : n < 25), chain z f n h = z + ∑ t : Fin (n + 1), tileSum f ⟨t.val, by have := t.isLt; omega⟩
  | 0, h => by simp [chain]
  | n + 1, h => by
    rw [chain, chain_eq z f n, Fin.sum_univ_castSucc (n := n + 1), add_assoc]
    rfl

/-- After the last tile the running total is the start value plus the sum over all nodes. -/
theorem chain_last (z : EReal) (f : Fin 50000 → EReal) : chain z f 24 (by decide) = z + ∑ r : Fin 50000, f r := by
  rw [chain_eq, ← sum_tiles]

end Cert.Readout

end
-- ==== Proof.LinTile.lean ====
/-
  The first kernel: each tile of 2000 rows is sent through the affine map, and the 25 tiles fill the array.
  So the array it leaves is `linAt` of the arrays it was given, row by row.
-/
import proofs.«105827_j33921651703918_1_alg».proof.Proof.Gen.KernelIdeal.Frame
import proofs.«105827_j33921651703918_1_alg».proof.Proof.Spec
import Idealize.ShloMosaic.Lib.Pipeline.Value
import Idealize.ShloMosaic.Lib.ValueIdx
import Idealize.ShloMosaic.PureOps.Ideal.Laws

noncomputable section

open scoped BigOperators

namespace Cert.Readout.Lin

open Cert.KernelIdeal Cert.KernelIdeal.Gen Cert.Readout
open Idealize.ShloMosaic Idealize.ShloMosaic.TcCoe Idealize.ShloMosaic.ValueIdx Idealize.SL.Sem
open Idealize.ShloMosaic.Pipeline (Dat)

/-! ## The tile's matrix product, read at an index

The product contracts the second axis of the tile with the first axis of the transposed weights. -/

/-- The left operand is read at the output's row … -/
theorem lhs_tile_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide),
    dif_pos (show (0 : Fin S2000x128.rank) ∈ dot_S2000x128_S128x128_S2000x128_1_0_0_1_n_n.lhsNonContracting by decide)]
  rfl
/-- … and at the contraction index on its second axis. -/
theorem lhs_tile_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
/-- The right operand is read at the contraction index on its first axis … -/
theorem rhs_tile_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
/-- … and at the output's column. -/
theorem rhs_tile_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide),
    dif_pos (show (1 : Fin S128x128.rank) ∈ dot_S2000x128_S128x128_S2000x128_1_0_0_1_n_n.rhsNonContracting by decide)]
  rfl

/-- The product into the zero accumulator at row `q`, column `j`: row `q` of the left operand against column `j` of
    the right one. -/
theorem tile_matmul (a : FVec Ideal S2000x128 .bf16) (b : FVec Ideal S128x128 .bf16) (q : Fin 2000) (j : Fin 128) :
    matmul dot_S2000x128_S128x128_S2000x128_1_0_0_1_n_n none a b (constant (F := Ideal) S2000x128 .f32 0x00000000#32) (ix2 q j)
      = ∑ k : Fin 128, a (ix2 q k) * b (ix2 k j) := by
  simp only [matmul]
  rw [Ideal.matmul_constant_zero_apply,
    ← Equiv.sum_comp (ValueIdx.contrEquiv1 dot_S2000x128_S128x128_S2000x128_1_0_0_1_n_n 128 rfl rfl).symm]
  refine Finset.sum_congr rfl fun k _ => ?_
  have hk := ValueIdx.contrEquiv1_symm_val dot_S2000x128_S128x128_S2000x128_1_0_0_1_n_n 128 rfl rfl k
  have el : dot_S2000x128_S128x128_S2000x128_1_0_0_1_n_n.lhsIdx (ix2 q j)
      ((ValueIdx.contrEquiv1 dot_S2000x128_S128x128_S2000x128_1_0_0_1_n_n 128 rfl rfl).symm k) = ix2 q k :=
    funext fun d => Fin.ext (by
      match d with
      | ⟨0, _⟩ => exact lhs_tile_0 _ _
      | ⟨1, _⟩ => exact (lhs_tile_1 _ _).trans hk)
  have er : dot_S2000x128_S128x128_S2000x128_1_0_0_1_n_n.rhsIdx (ix2 q j)
      ((ValueIdx.contrEquiv1 dot_S2000x128_S128x128_S2000x128_1_0_0_1_n_n 128 rfl rfl).symm k) = ix2 k j :=
    funext fun d => Fin.ext (by
      match d with
      | ⟨0, _⟩ => exact (rhs_tile_0 _ _).trans hk
      | ⟨1, _⟩ => exact rhs_tile_1 _ _)
  rw [el, er]

/-- The transposed weights at row `k`, column `j` are the weights at row `j`, column `k`. -/
theorem weights_transposed (v : FVec Ideal S128x128 .bf16) (k j : Fin 128) :
    transpose S128x128 [1, 0] v transposes_S128x128_p1_0_S128x128 (ix2 k j) = v (ix2 j k) :=
  transpose_apply [1, 0] v transposes_S128x128_p1_0_S128x128 (ix2 k j) (ix2 j k) (fun b => match b with
    | ⟨0, _⟩ => rfl
    | ⟨1, _⟩ => rfl)

/-- The bias row spread over the tile's rows: at row `q`, column `j` it is the row's entry `j`. -/
theorem bias_spread (br : Vec Ideal S1x128 .f32) (q : Fin 2000) (j : Fin 128) :
    broadcastTo S2000x128 (shapeCast S1x128 br shapeCasts_S1x128_S1x128) broadcasts_S1x128_S2000x128 (ix2 q j) = br (ix2 0 j) := by
  rw [shapeCast_self]
  exact broadcastTo_apply br broadcasts_S1x128_S2000x128 (ix2 q j) (ix2 0 j) (fun a => match a with
    | ⟨0, _⟩ => rfl
    | ⟨1, _⟩ => rfl)

/-- The tile's stored value at row `q`, feature `j`: that row of the tile against row `j` of `W`, plus the bias row. -/
theorem lin_payload (xb : Vec Ideal S2000x128 .f32) (w : Vec Ideal S128x128 .f32) (br : Vec Ideal S1x128 .f32)
    (q : Fin 2000) (j : Fin 128) :
    k0_pay1 (F := Ideal) xb w br (ix2 q j) = linTileAt xb w (fun j' => br (ix2 0 j')) q j := by
  unfold k0_pay1 linTileAt
  refine (addf_apply _ _ (ix2 q j)).trans (congrArg₂ (· + ·) ((tile_matmul _ _ q j).trans ?_) (bias_spread br q j))
  exact Finset.sum_congr rfl fun k _ => congrArg (xb (ix2 q k) * ·) (weights_transposed _ k j)

/-! ## From the tiles to the array

Point `t` of the grid reads rows `2000 t … 2000 t + 1999` of the input array, all of the weights and the bias row, and
writes back rows `2000 t … 2000 t + 1999` of the output array. So what it writes back is that block of ONE function of
the whole arrays, and the 25 blocks cover the output array. -/

section Array

variable (V : (c : Dev nD) → (b : Ref sig .tc) → Buf (Elt Ideal) ((c : Thread nD τ).loc b))

/-- The offsets of a whole-buffer access are all zero. -/
theorem zero_offsets : (![0, 0] : Fin 2 → Nat) = fun _ => 0 := funext fun a => by fin_cases a <;> rfl

/-- The three arrays the kernel is given, at their literal shapes. -/
abbrev xArr (c : Dev nD) : Vec Ideal S50000x128 .f32 := V c main_arg0
abbrev wArr (c : Dev nD) : Vec Ideal S128x128 .f32 := V c main_arg2
abbrev bArr (c : Dev nD) : Vec Ideal S1x128 .f32 := V c main_v7

/-- The blocks of them point `t` reads, at their literal shapes. -/
abbrev xTile (c : Dev nD) (t : Fin cfg0.N) : Vec Ideal S2000x128 .f32 := iblk0 V c 0 t
abbrev wTile (c : Dev nD) (t : Fin cfg0.N) : Vec Ideal S128x128 .f32 := iblk0 V c 1 t
abbrev bTile (c : Dev nD) (t : Fin cfg0.N) : Vec Ideal S1x128 .f32 := iblk0 V c 2 t

/-- The affine image of the whole input array. -/
abbrev linArr (x : Vec Ideal S50000x128 .f32) (w : Vec Ideal S128x128 .f32) (b : Vec Ideal S1x128 .f32) :
    Vec Ideal S50000x128 .f32 :=
  fun i => linAt x w (fun j' => b (ix2 0 j')) ⟨(i 0).val, (i 0).isLt⟩ ⟨(i 1).val, (i 1).isLt⟩

/-- Where each window's block sits at point `t`: the row blocks of the input and of the output are block `t`, the
    weights and the bias row are their one block. Decided over the 25 points. -/
theorem block_indices : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block at any point is the weights. -/
theorem wTile_eq (c : Dev nD) (t : Fin cfg0.N) : wTile V c t = wArr V c := by
  obtain ⟨-, -, e0, e1, -, -, -, -⟩ := block_indices t
  funext y
  show V c main_arg2 (((cfg0.win 1).blk t).view.emb y) = V c main_arg2 y
  refine congrArg (V c main_arg2) (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block at any point is the bias row. -/
theorem bTile_eq (c : Dev nD) (t : Fin cfg0.N) : bTile V c t = bArr V c := by
  obtain ⟨-, -, -, -, e0, e1, -, -⟩ := block_indices t
  funext y
  show V c main_v7 (((cfg0.win 2).blk t).view.emb y) = V c main_v7 y
  refine congrArg (V c main_v7) (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row `q` of the input's block at point `t` is row `2000 t + q` of the input array. -/
theorem xTile_apply (c : Dev nD) (t : Fin cfg0.N) (q : Fin 2000) (k : Fin 128) (r : Fin 50000)
    (hr : r.val = 2000 * t.val + q.val) : xTile V c t (ix2 q k) = xArr V c (ix2 r k) := by
  obtain ⟨e0, e1, -, -, -, -, -, -⟩ := block_indices t
  show V c main_arg0 (((cfg0.win 0).blk t).view.emb (ix2 q k)) = V c main_arg0 (ix2 r k)
  refine congrArg (V c main_arg0) (funext fun a => Fin.ext ?_)
  match a with
  | ⟨0, _⟩ => show win0_0.index t (0 : Fin 2) * 2000 + 1 * q.val = r.val; omega
  | ⟨1, _⟩ => show win0_0.index t (1 : Fin 2) * 128 + 1 * k.val = k.val; omega

/-- A tile's affine image is the rows' affine image, when the tile is those rows of the array. -/
theorem linTileAt_eq_linAt (x : Vec Ideal S50000x128 .f32) (w : Vec Ideal S128x128 .f32) (b : Vec Ideal S1x128 .f32)
    (xb : Vec Ideal S2000x128 .f32) (q : Fin 2000) (j : Fin 128) (r : Fin 50000)
    (hx : ∀ k : Fin 128, xb (ix2 q k) = x (ix2 r k)) :
    linTileAt xb w (fun j' => b (ix2 0 j')) q j = linAt x w (fun j' => b (ix2 0 j')) r j := by
  unfold linTileAt linAt
  simp only [hx]

/-- What point `t` writes back is block `t` of the affine image of the whole arrays. -/
theorem tile_written_back (c : Dev nD) (t : Fin cfg0.N) :
    (dat0 (F := Ideal) V c).flushed 3 t
      = ((cfg0.win 3).blk t).view.read (Elt Ideal) (linArr (xArr V c) (wArr V c) (bArr V c)) := by
  show (cfg0.win 3).cut (grid0.coords t) ((dat0 (F := Ideal) V c).after 3 t) = _
  rw [after0_3]
  unfold out0_3
  rw [View.canon_unit_zero zero_offsets]
  simp only [View.ld_unit_zero (S := S2000x128) zero_offsets, View.ld_unit_zero (S := S128x128) zero_offsets,
    View.ld_unit_zero (S := S1x128) zero_offsets]
  funext y
  obtain ⟨q, j, rfl⟩ : ∃ (q : Fin 2000) (j : Fin 128), y = ix2 q j := ⟨y 0, y 1, eq_ix2 (n0 := 2000) (n1 := 128) y⟩
  obtain ⟨-, -, -, -, -, -, e0, e1⟩ := block_indices t
  have ht : t.val < 25 := lt_of_lt_of_eq t.isLt N_0
  have hr : 2000 * t.val + q.val < 50000 := by have := q.isLt; omega
  show k0_pay1 (F := Ideal) (xTile V c t) (wTile V c t) (bTile V c t) (ix2 q j)
      = linArr (xArr V c) (wArr V c) (bArr V c) (((cfg0.win 3).blk t).view.emb (ix2 q j))
  refine (lin_payload (xTile V c t) (wTile V c t) (bTile V c t) q j).trans ?_
  rw [wTile_eq, bTile_eq]
  refine (linTileAt_eq_linAt (xArr V c) (wArr V c) (bArr V c) (xTile V c t) q j ⟨2000 * t.val + q.val, hr⟩
    (fun k => xTile_apply V c t q k _ rfl)).trans ?_
  refine congrArg₂ (linAt (xArr V c) (wArr V c) fun j' => bArr V c (ix2 0 j')) (Fin.ext ?_) (Fin.ext ?_)
  · show 2000 * t.val + q.val = win0_3.index t (0 : Fin 2) * 2000 + 1 * q.val; omega
  · show j.val = win0_3.index t (1 : Fin 2) * 128 + 1 * j.val; omega

/-- Row `r` of the output array lies in the block point `r / 2000` writes back. -/
theorem row_in_some_tile (i : S50000x128.Idx) :
    ∃ t : Fin cfg0.N, (cfg0.win 3).flush t = true ∧ i ∈ ((cfg0.win 3).blk t).view.set := by
  have h0 : (i 0).val < 50000 := (i 0).isLt
  have h1 : (i 1).val < 128 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, -, -, -, -, e0, e1⟩ := block_indices t
  refine ⟨t, flush0_3 t, ?_⟩
  show i ∈ ((View.whole main_v8).slice (win0_3.rect t)).set
  rw [View.set_slice_whole, Rect.mem_set_unit]
  intro a
  match a with
  | ⟨0, _⟩ =>
    show win0_3.index t (0 : Fin 2) * 2000 ≤ (i 0).val ∧ (i 0).val < win0_3.index t (0 : Fin 2) * 2000 + 2000
    omega
  | ⟨1, _⟩ =>
    show win0_3.index t (1 : Fin 2) * 128 ≤ (i 1).val ∧ (i 1).val < win0_3.index t (1 : Fin 2) * 128 + 128
    omega

end Array

/-- After the 25 tiles the output array holds the affine image of every row of the input array. -/
theorem lin_array (V : (c : Dev nD) → (b : Ref sig .tc) → Buf (Elt Ideal) ((c : Thread nD τ).loc b)) (c : Dev nD) :
    (dat0 (F := Ideal) V c).arrAt 3 cfg0.N
      = fun i => linAt (V c main_arg0) (V c main_arg2) (fun j' => V c main_v7 (ix2 0 j'))
          ⟨(i 0).val, (i 0).isLt⟩ ⟨(i 1).val, (i 1).isLt⟩ := by
  refine (dat0 (F := Ideal) V c).arrAt_eq_of_cover 3 (linArr (xArr V c) (wArr V c) (bArr V c))
    (fun t _ => tile_written_back V c t) row_in_some_tile

end Cert.Readout.Lin

end
-- ==== Proof.RefRead.lean ====
/-
  The reference program read against the specification: its affine stage is `linAt`, and its result is the
  zero word plus the sum over all nodes of `nodeOut` of the aggregated rows and in-degrees it computed.
-/
import proofs.«105827_j33921651703918_1_alg».proof.Proof.Gen.ReferenceIdeal.Read
import proofs.«105827_j33921651703918_1_alg».proof.Proof.Spec

noncomputable section

open scoped BigOperators

namespace Cert.Readout.Ref

open Cert.ReferenceIdeal Cert.ReferenceIdeal.Read Cert.Readout
open Idealize.ShloMosaic Idealize.ShloMosaic.ValueIdx

/-! ### The affine stage: where each operand is read

The contraction reads row `r` of the features against column `j` of the transposed weights, that is row `j` of the
weights themselves; the bias, broadcast along the rows, is read at `j`. -/

theorem lin_lhs (r : Fin 50000) (j k : Fin 128) : lidx_main_v8 (ix2 r j) k = ix2 r k :=
  funext fun a => Fin.ext (by match a with | ⟨0, _⟩ => rfl | ⟨1, _⟩ => rfl)

theorem lin_rhs (r : Fin 50000) (j k : Fin 128) : idx_main_v7 (ridx_main_v8 (ix2 r j) k) = ix2 j k :=
  funext fun a => Fin.ext (by match a with | ⟨0, _⟩ => rfl | ⟨1, _⟩ => rfl)

theorem lin_bias (r : Fin 50000) (j : Fin 128) : idx_main_v9 (idx_main_v10 (ix2 r j)) = ix1 j :=
  funext fun a => Fin.ext (by match a with | ⟨0, _⟩ => rfl)

/-- The reference's affine stage at node `r`, feature `j`. -/
theorem ref_lin (x0 : (⟨S50000x128, .f32⟩ : BufTy).Contents (Elt Ideal)) (x2 : (⟨S128x128, .f32⟩ : BufTy).Contents (Elt Ideal))
    (x3 : (⟨S128, .f32⟩ : BufTy).Contents (Elt Ideal)) (r : Fin 50000) (j : Fin 128) :
    val_main_v11 (F := Ideal) x0 x2 x3 (ix2 r j) = linAt x0 x2 (fun j' => x3 (ix1 j')) r j := by
  simp only [val_main_v11_apply, val_main_v8_apply, val_main_v7_apply, val_main_v10_apply, val_main_v9_apply,
    lin_lhs, lin_rhs, lin_bias, Ideal.addf_def]
  rfl

/-! ### The readout: where each operand is read

Term `r` of the final sum is row `r` of the output layer's result at column `o`. That layer contracts row `r` of the
rectified hidden layer against row `o` of its weights and adds its bias at `o`; the hidden layer contracts row `r`
of the normalised aggregate against row `k` of its weights and adds its bias at `k`; and the clamped in-degree,
broadcast along the features, is read at node `r`. -/

theorem out_term (o : Fin 3) (r : Fin 50000) : idx_main_v42 (ix1 o) r = ix2 r o :=
  funext fun a => Fin.ext (by match a with | ⟨0, _⟩ => rfl | ⟨1, _⟩ => rfl)

theorem out_lhs (r : Fin 50000) (o : Fin 3) (k : Fin 128) : lidx_main_v38 (ix2 r o) k = ix2 r k :=
  funext fun a => Fin.ext (by match a with | ⟨0, _⟩ => rfl | ⟨1, _⟩ => rfl)

theorem out_rhs (r : Fin 50000) (o : Fin 3) (k : Fin 128) : idx_main_v37 (ridx_main_v38 (ix2 r o) k) = ix2 o k :=
  funext fun a => Fin.ext (by match a with | ⟨0, _⟩ => rfl | ⟨1, _⟩ => rfl)

theorem out_bias (r : Fin 50000) (o : Fin 3) : idx_main_v39 (idx_main_v40 (ix2 r o)) = ix1 o :=
  funext fun a => Fin.ext (by match a with | ⟨0, _⟩ => rfl)

theorem hid_bias (r : Fin 50000) (k : Fin 128) : idx_main_v33 (idx_main_v34 (ix2 r k)) = ix1 k :=
  funext fun a => Fin.ext (by match a with | ⟨0, _⟩ => rfl)

theorem hid_lhs (r : Fin 50000) (k d : Fin 128) : lidx_main_v32 (ix2 r k) d = ix2 r d :=
  funext fun a => Fin.ext (by match a with | ⟨0, _⟩ => rfl | ⟨1, _⟩ => rfl)

theorem hid_rhs (r : Fin 50000) (k d : Fin 128) : idx_main_v31 (ridx_main_v32 (ix2 r k) d) = ix2 k d :=
  funext fun a => Fin.ext (by match a with | ⟨0, _⟩ => rfl | ⟨1, _⟩ => rfl)

theorem deg_idx (r : Fin 50000) (d : Fin 128) : idx_main_v28 (idx_main_v29 (ix2 r d)) = ix1 r :=
  funext fun a => Fin.ext (by match a with | ⟨0, _⟩ => rfl)

/-- The reference's result at output `o`: the zero word plus every node's readout of its aggregated row
    (`val_main_v21`) and its in-degree (`val_main_v25`). -/
theorem ref_out (x0 : (⟨S50000x128, .f32⟩ : BufTy).Contents (Elt Ideal)) (x1 : (⟨S2x600000, .i32⟩ : BufTy).Contents (Elt Ideal))
    (x2 : (⟨S128x128, .f32⟩ : BufTy).Contents (Elt Ideal)) (x3 : (⟨S128, .f32⟩ : BufTy).Contents (Elt Ideal))
    (x4 : (⟨S128x128, .f32⟩ : BufTy).Contents (Elt Ideal)) (x5 : (⟨S128, .f32⟩ : BufTy).Contents (Elt Ideal))
    (x6 : (⟨S3x128, .f32⟩ : BufTy).Contents (Elt Ideal)) (x7 : (⟨S3, .f32⟩ : BufTy).Contents (Elt Ideal)) (o : Fin 3) :
    val_main_v42 (F := Ideal) x0 x1 x2 x3 x4 x5 x6 x7 (ix1 o)
      = zeroW + ∑ r : Fin 50000, nodeOut (fun d => val_main_v21 (F := Ideal) x0 x1 x2 x3 (ix2 r d))
          (val_main_v25 (F := Ideal) x1 (ix1 r)) x4 (fun k => x5 (ix1 k)) x6 (fun o' => x7 (ix1 o')) o := by
  simp only [val_main_v42_apply, val_main_cst_4_apply, val_main_v41_apply, val_main_v38_apply, val_main_v37_apply,
    val_main_v40_apply, val_main_v39_apply, val_main_v36_apply, val_main_call0_v0_apply, val_main_call0_cst_apply,
    val_main_v35_apply, val_main_v34_apply, val_main_v33_apply, val_main_v32_apply, val_main_v31_apply,
    val_main_v30_apply, val_main_v29_apply, val_main_v28_apply, val_main_v27_apply, val_main_v26_apply,
    val_main_cst_3_apply,
    out_term, out_lhs, out_rhs, out_bias, hid_bias, hid_lhs, hid_rhs, deg_idx,
    Ideal.addf_def, Ideal.maximumf_def, Ideal.hostDivf_def, Ideal.ofBits_def]
  rfl

end Cert.Readout.Ref

end
-- ==== Proof.TailTile.lean ====
/-
  The second kernel's arithmetic on one tile: the value it stores is the running total it read plus the sum,
  over the tile's 2000 nodes, of each node's readout.
-/
import proofs.«105827_j33921651703918_1_alg».proof.Proof.Gen.KernelIdeal.Frame
import proofs.«105827_j33921651703918_1_alg».proof.Proof.Spec
import Idealize.ShloMosaic.Lib.Pipeline.Value
import Idealize.ShloMosaic.Lib.ValueIdx
import Idealize.ShloMosaic.PureOps.Ideal.Laws

noncomputable section

open scoped BigOperators

namespace Cert.Readout.Tail

open Cert.KernelIdeal Cert.KernelIdeal.Gen Cert.Readout
open Idealize.ShloMosaic Idealize.ShloMosaic.TcCoe Idealize.ShloMosaic.ValueIdx Idealize.SL.Sem

/-! ## The layout operations read at an entry -/

section Layout
variable {α : Type}

/-- A column of 2000 entries spread along 128 lanes: entry `(q, d)` is the column's entry of row `q`. -/
theorem spreadCol_apply (x : S2000x1.Idx → α) (h : S2000x1.Broadcasts S2000x128) (q : Fin 2000) (d : Fin 128) :
    broadcastTo S2000x128 x h (ix2 q d) = x (ix2 q 0) :=
  broadcastTo_apply x h (ix2 q d) (ix2 q 0) fun a => by
    match a with
    | ⟨0, _⟩ => rfl
    | ⟨1, _⟩ => rfl

/-- A row of 128 entries repeated down 2000 rows: entry `(q, k)` is the row's entry `k`. -/
theorem spreadRow128_apply (x : S1x128.Idx → α) (h : S1x128.Broadcasts S2000x128) (q : Fin 2000) (k : Fin 128) :
    broadcastTo S2000x128 x h (ix2 q k) = x (ix2 0 k) :=
  broadcastTo_apply x h (ix2 q k) (ix2 0 k) fun a => by
    match a with
    | ⟨0, _⟩ => rfl
    | ⟨1, _⟩ => rfl

/-- A row of 3 entries repeated down 2000 rows: entry `(q, o)` is the row's entry `o`. -/
theorem spreadRow3_apply (x : S1x3.Idx → α) (h : S1x3.Broadcasts S2000x3) (q : Fin 2000) (o : Fin 3) :
    broadcastTo S2000x3 x h (ix2 q o) = x (ix2 0 o) :=
  broadcastTo_apply x h (ix2 q o) (ix2 0 o) fun a => by
    match a with
    | ⟨0, _⟩ => rfl
    | ⟨1, _⟩ => rfl

/-- The transposed square matrix at `(d, k)` is the matrix at `(k, d)`. -/
theorem flip128_apply (x : S128x128.Idx → α) (h : S128x128.Transposes [1, 0] S128x128) (d k : Fin 128) :
    transpose S128x128 [1, 0] x h (ix2 d k) = x (ix2 k d) :=
  transpose_apply [1, 0] x h (ix2 d k) (ix2 k d) fun b => by
    match b with
    | ⟨0, _⟩ => rfl
    | ⟨1, _⟩ => rfl

/-- The transposed `3 × 128` matrix at `(k, o)` is the matrix at `(o, k)`. -/
theorem flip3_apply (x : S3x128.Idx → α) (h : S3x128.Transposes [1, 0] S128x3) (k : Fin 128) (o : Fin 3) :
    transpose S128x3 [1, 0] x h (ix2 k o) = x (ix2 o k) :=
  transpose_apply [1, 0] x h (ix2 k o) (ix2 o k) fun b => by
    match b with
    | ⟨0, _⟩ => rfl
    | ⟨1, _⟩ => rfl

end Layout

/-! ## The two products read at an entry -/

theorem lhs_hidden_0 (i : S2000x128.Idx) (c : dot_S2000x128_S128x128_S2000x128_1_0_0_1_n_n.contr.Idx) :
    (dot_S2000x128_S128x128_S2000x128_1_0_0_1_n_n.lhsIdx i c 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_hidden_1 (i : S2000x128.Idx) (c : dot_S2000x128_S128x128_S2000x128_1_0_0_1_n_n.contr.Idx) :
    (dot_S2000x128_S128x128_S2000x128_1_0_0_1_n_n.lhsIdx i c 1).val = (c ⟨0, by decide⟩).val :=
  dot_S2000x128_S128x128_S2000x128_1_0_0_1_n_n.lhsIdx_val_of_single rfl i c
theorem rhs_hidden_0 (i : S2000x128.Idx) (c : dot_S2000x128_S128x128_S2000x128_1_0_0_1_n_n.contr.Idx) :
    (dot_S2000x128_S128x128_S2000x128_1_0_0_1_n_n.rhsIdx i c 0).val = (c ⟨0, by decide⟩).val :=
  dot_S2000x128_S128x128_S2000x128_1_0_0_1_n_n.rhsIdx_val_of_single rfl i c
theorem rhs_hidden_1 (i : S2000x128.Idx) (c : dot_S2000x128_S128x128_S2000x128_1_0_0_1_n_n.contr.Idx) :
    (dot_S2000x128_S128x128_S2000x128_1_0_0_1_n_n.rhsIdx i c 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The hidden layer's product into the zero accumulator: entry `(q, k)` is row `q` of the left factor against column `k` of the right one. -/
theorem hidden_apply (a : FVec Ideal S2000x128 .bf16) (b : FVec Ideal S128x128 .bf16) (q : Fin 2000) (k : Fin 128) :
    matmul dot_S2000x128_S128x128_S2000x128_1_0_0_1_n_n none a b (constant (F := Ideal) S2000x128 .f32 0x00000000#32) (ix2 q k)
      = ∑ d : Fin 128, a (ix2 q d) * b (ix2 d k) := by
  simp only [matmul]
  rw [Ideal.matmul_constant_zero_apply, ← Equiv.sum_comp (ValueIdx.contrEquiv1 dot_S2000x128_S128x128_S2000x128_1_0_0_1_n_n 128 rfl rfl).symm]
  refine Finset.sum_congr rfl fun d _ => ?_
  have hc := ValueIdx.contrEquiv1_symm_val dot_S2000x128_S128x128_S2000x128_1_0_0_1_n_n 128 rfl rfl d
  have el : dot_S2000x128_S128x128_S2000x128_1_0_0_1_n_n.lhsIdx (ix2 q k) ((ValueIdx.contrEquiv1 dot_S2000x128_S128x128_S2000x128_1_0_0_1_n_n 128 rfl rfl).symm d) = ix2 q d := funext fun x => Fin.ext (by
    match x with
    | ⟨0, _⟩ => exact lhs_hidden_0 _ _
    | ⟨1, _⟩ => exact (lhs_hidden_1 _ _).trans hc)
  have er : dot_S2000x128_S128x128_S2000x128_1_0_0_1_n_n.rhsIdx (ix2 q k) ((ValueIdx.contrEquiv1 dot_S2000x128_S128x128_S2000x128_1_0_0_1_n_n 128 rfl rfl).symm d) = ix2 d k := funext fun x => Fin.ext (by
    match x with
    | ⟨0, _⟩ => exact (rhs_hidden_0 _ _).trans hc
    | ⟨1, _⟩ => exact rhs_hidden_1 _ _)
  rw [el, er]

theorem lhs_readout_0 (i : S2000x3.Idx) (c : dot_S2000x128_S128x3_S2000x3_1_0_0_1_n_n.contr.Idx) :
    (dot_S2000x128_S128x3_S2000x3_1_0_0_1_n_n.lhsIdx i c 0).val = (i 0).val := by
  unfold DotDims.lhsIdx
  rw [dif_neg (show ¬(0 : Fin S2000x128.rank) ∈ dot_S2000x128_S128x3_S2000x3_1_0_0_1_n_n.lhsBatch by decide), dif_pos (show (0 : Fin S2000x128.rank) ∈ dot_S2000x128_S128x3_S2000x3_1_0_0_1_n_n.lhsNonContracting by decide)]
  rfl
theorem lhs_readout_1 (i : S2000x3.Idx) (c : dot_S2000x128_S128x3_S2000x3_1_0_0_1_n_n.contr.Idx) :
    (dot_S2000x128_S128x3_S2000x3_1_0_0_1_n_n.lhsIdx i c 1).val = (c ⟨0, by decide⟩).val :=
  dot_S2000x128_S128x3_S2000x3_1_0_0_1_n_n.lhsIdx_val_of_single rfl i c
theorem rhs_readout_0 (i : S2000x3.Idx) (c : dot_S2000x128_S128x3_S2000x3_1_0_0_1_n_n.contr.Idx) :
    (dot_S2000x128_S128x3_S2000x3_1_0_0_1_n_n.rhsIdx i c 0).val = (c ⟨0, by decide⟩).val :=
  dot_S2000x128_S128x3_S2000x3_1_0_0_1_n_n.rhsIdx_val_of_single rfl i c
theorem rhs_readout_1 (i : S2000x3.Idx) (c : dot_S2000x128_S128x3_S2000x3_1_0_0_1_n_n.contr.Idx) :
    (dot_S2000x128_S128x3_S2000x3_1_0_0_1_n_n.rhsIdx i c 1).val = (i 1).val := by
  unfold DotDims.rhsIdx
  rw [dif_neg (show ¬(1 : Fin S128x3.rank) ∈ dot_S2000x128_S128x3_S2000x3_1_0_0_1_n_n.rhsBatch by decide), dif_pos (show (1 : Fin S128x3.rank) ∈ dot_S2000x128_S128x3_S2000x3_1_0_0_1_n_n.rhsNonContracting by decide)]
  rfl

/-- The output layer's product into the zero accumulator: entry `(q, o)` is row `q` of the left factor against column `o` of the right one. -/
theorem readout_apply (a : FVec Ideal S2000x128 .bf16) (b : FVec Ideal S128x3 .bf16) (q : Fin 2000) (o : Fin 3) :
    matmul dot_S2000x128_S128x3_S2000x3_1_0_0_1_n_n none a b (constant (F := Ideal) S2000x3 .f32 0x00000000#32) (ix2 q o)
      = ∑ k : Fin 128, a (ix2 q k) * b (ix2 k o) := by
  simp only [matmul]
  rw [Ideal.matmul_constant_zero_apply, ← Equiv.sum_comp (ValueIdx.contrEquiv1 dot_S2000x128_S128x3_S2000x3_1_0_0_1_n_n 128 rfl rfl).symm]
  refine Finset.sum_congr rfl fun k _ => ?_
  have hc := ValueIdx.contrEquiv1_symm_val dot_S2000x128_S128x3_S2000x3_1_0_0_1_n_n 128 rfl rfl k
  have el : dot_S2000x128_S128x3_S2000x3_1_0_0_1_n_n.lhsIdx (ix2 q o) ((ValueIdx.contrEquiv1 dot_S2000x128_S128x3_S2000x3_1_0_0_1_n_n 128 rfl rfl).symm k) = ix2 q k := funext fun x => Fin.ext (by
    match x with
    | ⟨0, _⟩ => exact lhs_readout_0 _ _
    | ⟨1, _⟩ => exact (lhs_readout_1 _ _).trans hc)
  have er : dot_S2000x128_S128x3_S2000x3_1_0_0_1_n_n.rhsIdx (ix2 q o) ((ValueIdx.contrEquiv1 dot_S2000x128_S128x3_S2000x3_1_0_0_1_n_n 128 rfl rfl).symm k) = ix2 k o := funext fun x => Fin.ext (by
    match x with
    | ⟨0, _⟩ => exact (rhs_readout_0 _ _).trans hc
    | ⟨1, _⟩ => exact rhs_readout_1 _ _)
  rw [el, er]

/-! ## The sum down the rows -/

/-- The sum of a `2000 × 3` vector over its rows, read at output `o`. -/
theorem rowsSum_apply (src : FVec Ideal S2000x3 .f32) (h : S2000x3.Reduces [0] S3) (hφ : FKind.Formats .f32)
    (hacc : (0x00000000#32 : BitVec 32) = 0x00000000#32) (o : Fin 3) :
    multiReduction (F := Ideal) .add [0] S3 src 0x00000000#32 h hφ hacc (ix1 o) = ∑ q : Fin 2000, src (ix2 q o) := by
  refine (Ideal.multiReduction_add_single src 0x00000000#32 h hφ hacc (ix1 o)).trans ?_
  refine Finset.sum_congr rfl fun q _ => congrArg src (funext fun a => Fin.ext ?_)
  match a with
  | ⟨0, _⟩ => rfl
  | ⟨1, _⟩ => rfl

/-! ## The three stages of a node's readout, read at an entry -/

/-- The aggregated tile divided by the clamped in-degree column: entry `(q, d)` is row `q`'s entry `d` over the
    larger of row `q`'s in-degree and one. -/
theorem normed_apply (cb : Vec Ideal S2000x1 .f32) (sb : Vec Ideal S2000x128 .f32) (hs : S2000x128.ShapeCasts S2000x128)
    (hc : S2000x1.ShapeCasts S2000x1) (hb : S2000x1.Broadcasts S2000x128) (hlt : FTy.bits .bf16 < FTy.bits .f32)
    (q : Fin 2000) (d : Fin 128) :
    (truncf .bf16 (divf (shapeCast S2000x128 sb hs)
        (broadcastTo S2000x128 (maximumf (shapeCast S2000x1 cb hc) (broadcast S2000x1 (FloatOps.ofBits .f32 0x3F800000#32))) hb))
      hlt : FVec Ideal S2000x128 .bf16) (ix2 q d)
      = Ideal.div (sb (ix2 q d)) (max (cb (ix2 q 0)) oneW) := by
  rw [truncf_apply, divf_apply, shapeCast_self, spreadCol_apply, maximumf_apply, shapeCast_self, broadcast_apply]
  rfl

/-- The hidden layer on a tile `x`: entry `(q, k)` is the rectified sum of row `q` of `x` against row `k` of the
    weights, plus the bias's entry `k`. -/
theorem hiddenAct_apply (x : FVec Ideal S2000x128 .bf16) (w1 : Vec Ideal S128x128 .f32) (b1r : Vec Ideal S1x128 .f32)
    (ht : S128x128.Transposes [1, 0] S128x128) (hs : S1x128.ShapeCasts S1x128) (hb : S1x128.Broadcasts S2000x128)
    (hlt : FTy.bits .bf16 < FTy.bits .f32) (q : Fin 2000) (k : Fin 128) :
    (truncf .bf16 (maximumf (addf
        (matmul dot_S2000x128_S128x128_S2000x128_1_0_0_1_n_n none x (transpose S128x128 [1, 0] (truncf .bf16 w1 hlt) ht)
          (constant (F := Ideal) S2000x128 .f32 0x00000000#32))
        (broadcastTo S2000x128 (shapeCast S1x128 b1r hs) hb))
        (broadcast S2000x128 (FloatOps.ofBits .f32 0x00000000#32))) hlt : FVec Ideal S2000x128 .bf16) (ix2 q k)
      = max ((∑ d : Fin 128, x (ix2 q d) * w1 (ix2 k d)) + b1r (ix2 0 k)) zeroW := by
  rw [truncf_apply, maximumf_apply, addf_apply, hidden_apply, spreadRow128_apply, shapeCast_self, broadcast_apply]
  refine congrArg (fun s => max (s + b1r (ix2 0 k)) zeroW) (Finset.sum_congr rfl fun d _ => ?_)
  rw [flip128_apply, truncf_apply]

/-- The output layer on a tile `y`: entry `(q, o)` is row `q` of `y` against row `o` of the weights, plus the bias's
    entry `o`. -/
theorem outLayer_apply (y : FVec Ideal S2000x128 .bf16) (w2 : Vec Ideal S3x128 .f32) (b2r : Vec Ideal S1x3 .f32)
    (ht : S3x128.Transposes [1, 0] S128x3) (hs : S1x3.ShapeCasts S1x3) (hb : S1x3.Broadcasts S2000x3)
    (hlt : FTy.bits .bf16 < FTy.bits .f32) (q : Fin 2000) (o : Fin 3) :
    addf (matmul dot_S2000x128_S128x3_S2000x3_1_0_0_1_n_n none y (transpose S128x3 [1, 0] (truncf .bf16 w2 hlt) ht)
          (constant (F := Ideal) S2000x3 .f32 0x00000000#32))
        (broadcastTo S2000x3 (shapeCast S1x3 b2r hs) hb) (ix2 q o)
      = (∑ k : Fin 128, y (ix2 q k) * w2 (ix2 o k)) + b2r (ix2 0 o) := by
  rw [addf_apply, readout_apply, spreadRow3_apply, shapeCast_self]
  refine congrArg (· + b2r (ix2 0 o)) (Finset.sum_congr rfl fun k _ => ?_)
  rw [flip3_apply, truncf_apply]

/-! ## The payloads -/

/-- The reset value is the zero word at every output. -/
theorem tail_zero (o : Fin 3) : k1_pay1 (F := Ideal) (ix1 o) = zeroW := by
  rfl

/-- The stored value at output `o`: the running total plus the tile's nodes' readouts, node `q` read from row `q`
    of the aggregated tile `sb` and of the in-degree column `cb`. -/
theorem tail_payload (cb : Vec Ideal S2000x1 .f32) (sb : Vec Ideal S2000x128 .f32) (w1 : Vec Ideal S128x128 .f32)
    (b1r : Vec Ideal S1x128 .f32) (w2 : Vec Ideal S3x128 .f32) (b2r : Vec Ideal S1x3 .f32) (acc : Vec Ideal S3 .f32) (o : Fin 3) :
    k1_pay2 (F := Ideal) cb sb w1 b1r w2 b2r acc (ix1 o)
      = acc (ix1 o) + ∑ q : Fin 2000, nodeOut (fun d => sb (ix2 q d)) (cb (ix2 q 0)) w1 (fun k => b1r (ix2 0 k)) w2
          (fun o' => b2r (ix2 0 o')) o := by
  unfold k1_pay2
  rw [addf_apply, shapeCast_self]
  refine congrArg (acc (ix1 o) + ·) ((rowsSum_apply _ _ _ _ o).trans (Finset.sum_congr rfl fun q _ => ?_))
  refine (outLayer_apply _ w2 b2r _ _ _ _ q o).trans ?_
  unfold nodeOut
  refine congrArg (· + b2r (ix2 0 o)) (Finset.sum_congr rfl fun k _ => congrArg (· * w2 (ix2 o k)) ?_)
  refine (hiddenAct_apply _ w1 b1r _ _ _ _ q k).trans ?_
  refine congrArg (fun s => max (s + b1r (ix2 0 k)) zeroW) (Finset.sum_congr rfl fun d _ => congrArg (· * w1 (ix2 k d)) ?_)
  exact normed_apply cb sb _ _ _ _ q d

end Cert.Readout.Tail

end
-- ==== Proof.TailRun.lean ====
/-
  The second kernel across its 25 tiles. At the first tile it resets the running total to the zero word and adds the
  tile; at every later tile it adds the tile to what the tile before left. So after tile `n` the total is the
  specification's `chain`, and the array written back after the last tile holds `chain … 24`.
-/
import proofs.«105827_j33921651703918_1_alg».proof.Proof.Gen.KernelIdeal.Frame
import proofs.«105827_j33921651703918_1_alg».proof.Proof.Spec
import proofs.«105827_j33921651703918_1_alg».proof.Proof.TailTile
import Idealize.ShloMosaic.Lib.Pipeline.Value
import Idealize.ShloMosaic.Lib.ValueIdx
import Idealize.ShloMosaic.PureOps.Ideal.Laws

noncomputable section

open scoped BigOperators

namespace Cert.Readout.Tail

open Cert.KernelIdeal Cert.KernelIdeal.Gen Cert.Readout
open Idealize.ShloMosaic Idealize.ShloMosaic.TcCoe Idealize.ShloMosaic.ValueIdx Idealize.SL.Sem
open Idealize.ShloMosaic.Pipeline (Dat)

variable {F : FTy → Type} [FloatOps F]

namespace Run

/-- The zero offsets of a rank-2 and of a rank-1 access, as constant functions. -/
theorem hz2 : (![0, 0] : Fin 2 → Nat) = fun _ => 0 := funext fun a => by fin_cases a <;> rfl
theorem hz1 : (![0] : Fin 1 → Nat) = fun _ => 0 := funext fun a => by fin_cases a; rfl

end Run

open Run

/-- At the first tile the body stores the reset value, reads it back, and leaves the stored value over it. -/
theorem out_first (c : Dev nD) (i : grid1.Coords) (a1 : Memref sig .tc .vmem S2000x128 .f32) (h1 : a1.IsWhole)
    (a2 : Memref sig .tc .vmem S2000x1 .f32) (h2 : a2.IsWhole) (a3 : Memref sig .tc .vmem S128x128 .f32) (h3 : a3.IsWhole)
    (a4 : Memref sig .tc .vmem S1x128 .f32) (h4 : a4.IsWhole) (a5 : Memref sig .tc .vmem S3x128 .f32) (h5 : a5.IsWhole)
    (a6 : Memref sig .tc .vmem S1x3 .f32) (h6 : a6.IsWhole) (a7 : Memref sig .tc .vmem S3 .f32) (h7 : a7.IsWhole) (hc : cond1_0 i)
    (x0 : Vec F S2000x128 .f32) (x1 : Vec F S2000x1 .f32) (x2 : Vec F S128x128 .f32) (x3 : Vec F S1x128 .f32)
    (x4 : Vec F S3x128 .f32) (x5 : Vec F S1x3 .f32) :
    out1_A_6 c i a1 h1 a2 h2 a3 h3 a4 h4 a5 h5 a6 h6 a7 h7 hc x0 x1 x2 x3 x4 x5
      = k1_pay2 x1 x0 x2 x3 x4 x5 (k1_pay1 (F := F)) := by
  unfold out1_A_6
  rw [View.read_writes_eq_canon _ _ _ (cover1_A_6 c i a1 h1 a2 h2 a3 h3 a4 h4 a5 h5 a6 h6 a7 h7 hc x0 x1 x2 x3 x4 x5)]
  unfold kernelRun1_A
  dsimp only
  sl_unfold_words
  rw [View.canon_cons_unit_zero (S := S3) hz1, View.readCov_unit_zero (S := S3) _ hz1]
  simp only [View.readAt_eq_ld, h1.read_unread, h2.read_unread, h3.read_unread, h4.read_unread, h5.read_unread,
    h6.read_unread, View.ld_unit_zero (S := S2000x128) hz2, View.ld_unit_zero (S := S2000x1) hz2,
    View.ld_unit_zero (S := S128x128) hz2, View.ld_unit_zero (S := S1x128) hz2, View.ld_unit_zero (S := S3x128) hz2,
    View.ld_unit_zero (S := S1x3) hz2]

/-- At a later tile the body leaves the stored value over the total `xo` the tile before left. -/
theorem out_next (c : Dev nD) (i : grid1.Coords) (a1 : Memref sig .tc .vmem S2000x128 .f32) (h1 : a1.IsWhole)
    (a2 : Memref sig .tc .vmem S2000x1 .f32) (h2 : a2.IsWhole) (a3 : Memref sig .tc .vmem S128x128 .f32) (h3 : a3.IsWhole)
    (a4 : Memref sig .tc .vmem S1x128 .f32) (h4 : a4.IsWhole) (a5 : Memref sig .tc .vmem S3x128 .f32) (h5 : a5.IsWhole)
    (a6 : Memref sig .tc .vmem S1x3 .f32) (h6 : a6.IsWhole) (a7 : Memref sig .tc .vmem S3 .f32) (h7 : a7.IsWhole) (hc : ¬cond1_0 i)
    (x0 : Vec F S2000x128 .f32) (x1 : Vec F S2000x1 .f32) (x2 : Vec F S128x128 .f32) (x3 : Vec F S1x128 .f32)
    (x4 : Vec F S3x128 .f32) (x5 : Vec F S1x3 .f32) (xo : Vec F S3 .f32) :
    out1_B_6 c i a1 h1 a2 h2 a3 h3 a4 h4 a5 h5 a6 h6 a7 h7 hc x0 x1 x2 x3 x4 x5 xo
      = k1_pay2 x1 x0 x2 x3 x4 x5 xo := by
  unfold out1_B_6
  rw [View.read_writes_eq_canon _ _ _ (cover1_B_6 c i a1 h1 a2 h2 a3 h3 a4 h4 a5 h5 a6 h6 a7 h7 hc x0 x1 x2 x3 x4 x5 xo)]
  unfold kernelRun1_B
  dsimp only
  sl_unfold_words
  rw [View.canon_unit_zero hz1]
  simp only [View.readAt_eq_ld, h1.read_unread, h2.read_unread, h3.read_unread, h4.read_unread, h5.read_unread,
    h6.read_unread, h7.read_unread, View.ld_unit_zero (S := S2000x128) hz2, View.ld_unit_zero (S := S2000x1) hz2,
    View.ld_unit_zero (S := S128x128) hz2, View.ld_unit_zero (S := S1x128) hz2, View.ld_unit_zero (S := S3x128) hz2,
    View.ld_unit_zero (S := S1x3) hz2, View.ld_unit_zero (S := S3) hz1]

/-- Node `r`'s readout at output `o`, read from the arrays the second kernel is entered with. -/
def nodeAt (V : (c : Dev nD) → (b : Ref sig .tc) → Buf (Elt Ideal) ((c : Thread nD τ).loc b)) (c : Dev nD) (o : Fin 3)
    (r : Fin 50000) : EReal :=
  nodeOut (fun d => V c main_v18 (ix2 r d)) (V c main_v23 (ix2 r 0)) (V c main_arg4) (fun k => V c main_v24 (ix2 0 k))
    (V c main_arg6) (fun o' => V c main_v25 (ix2 0 o')) o

namespace Run

/-! ## What each tile reads -/

section Tiles

variable (V : (c : Dev nD) → (b : Ref sig .tc) → Buf (Elt Ideal) ((c : Thread nD τ).loc b))

/-- Tile `t`'s 2000 aggregated rows and its 2000 in-degrees, and the four parameter arrays as tile `t` sees them,
    each at its literal type. -/
abbrev aggBlk (c : Dev nD) (t : Fin cfg1.N) : Vec Ideal S2000x128 .f32 := iblk1 V c 0 t
abbrev degBlk (c : Dev nD) (t : Fin cfg1.N) : Vec Ideal S2000x1 .f32 := iblk1 V c 1 t
abbrev w1Blk (c : Dev nD) (t : Fin cfg1.N) : Vec Ideal S128x128 .f32 := iblk1 V c 2 t
abbrev b1Blk (c : Dev nD) (t : Fin cfg1.N) : Vec Ideal S1x128 .f32 := iblk1 V c 3 t
abbrev w2Blk (c : Dev nD) (t : Fin cfg1.N) : Vec Ideal S3x128 .f32 := iblk1 V c 4 t
abbrev b2Blk (c : Dev nD) (t : Fin cfg1.N) : Vec Ideal S1x3 .f32 := iblk1 V c 5 t

/-- Where each window's block sits at tile `t`: the node windows at row block `t`, every other window at block 0. -/
theorem tile_index : ∀ t : Fin grid1.N,
    (win1_0.index t 0 = t.val ∧ win1_0.index t 1 = 0) ∧ (win1_1.index t 0 = t.val ∧ win1_1.index t 1 = 0)
    ∧ (win1_2.index t 0 = 0 ∧ win1_2.index t 1 = 0) ∧ (win1_3.index t 0 = 0 ∧ win1_3.index t 1 = 0)
    ∧ (win1_4.index t 0 = 0 ∧ win1_4.index t 1 = 0) ∧ (win1_5.index t 0 = 0 ∧ win1_5.index t 1 = 0)
    ∧ win1_6.index t 0 = 0 := by decide +kernel

/-- Row `q` of tile `t`'s aggregated block is node `2000 t + q`'s aggregated row. -/
theorem aggBlk_apply (c : Dev nD) (t : Fin cfg1.N) (t' : Fin 25) (ht : t'.val = t.val) (q : Fin 2000) (d : Fin 128) :
    aggBlk V c t (ix2 q d) = V c main_v18 (ix2 (nodeOf t' q) d) := by
  show iblk1 V c 0 t (ix2 q d) = _
  unfold iblk1
  rw [View.read_apply]
  show V c main_v18 _ = V c main_v18 _
  congr 1
  funext a
  apply Fin.ext
  match a with
  | ⟨0, _⟩ =>
    show win1_0.index t 0 * 2000 + 1 * q.val = 2000 * t'.val + q.val
    rw [(tile_index t).1.1]; omega
  | ⟨1, _⟩ =>
    show win1_0.index t 1 * 128 + 1 * d.val = d.val
    rw [(tile_index t).1.2]; omega

/-- Row `q` of tile `t`'s in-degree block is node `2000 t + q`'s in-degree. -/
theorem degBlk_apply (c : Dev nD) (t : Fin cfg1.N) (t' : Fin 25) (ht : t'.val = t.val) (q : Fin 2000) :
    degBlk V c t (ix2 q 0) = V c main_v23 (ix2 (nodeOf t' q) 0) := by
  show iblk1 V c 1 t (ix2 q 0) = _
  unfold iblk1
  rw [View.read_apply]
  show V c main_v23 _ = V c main_v23 _
  congr 1
  funext a
  apply Fin.ext
  match a with
  | ⟨0, _⟩ =>
    show win1_1.index t 0 * 2000 + 1 * q.val = 2000 * t'.val + q.val
    rw [(tile_index t).2.1.1]; omega
  | ⟨1, _⟩ =>
    show win1_1.index t 1 * 1 + 1 * (0 : Fin 1).val = (0 : Fin 1).val
    rw [(tile_index t).2.1.2]; omega

/-- Every tile sees the whole first-layer weights, -/
theorem w1Blk_eq (c : Dev nD) (t : Fin cfg1.N) : w1Blk V c t = V c main_arg4 := by
  funext y
  show iblk1 V c 2 t y = _
  unfold iblk1
  rw [View.read_apply]
  show V c main_arg4 _ = V c main_arg4 y
  congr 1
  funext a
  apply Fin.ext
  match a with
  | ⟨0, _⟩ =>
    show win1_2.index t 0 * 128 + 1 * (y 0).val = (y 0).val
    rw [(tile_index t).2.2.1.1]; omega
  | ⟨1, _⟩ =>
    show win1_2.index t 1 * 128 + 1 * (y 1).val = (y 1).val
    rw [(tile_index t).2.2.1.2]; omega

/-- the whole first-layer bias row, -/
theorem b1Blk_eq (c : Dev nD) (t : Fin cfg1.N) : b1Blk V c t = V c main_v24 := by
  funext y
  show iblk1 V c 3 t y = _
  unfold iblk1
  rw [View.read_apply]
  show V c main_v24 _ = V c main_v24 y
  congr 1
  funext a
  apply Fin.ext
  match a with
  | ⟨0, _⟩ =>
    show win1_3.index t 0 * 1 + 1 * (y 0).val = (y 0).val
    rw [(tile_index t).2.2.2.1.1]; omega
  | ⟨1, _⟩ =>
    show win1_3.index t 1 * 128 + 1 * (y 1).val = (y 1).val
    rw [(tile_index t).2.2.2.1.2]; omega

/-- the whole output-layer weights, -/
theorem w2Blk_eq (c : Dev nD) (t : Fin cfg1.N) : w2Blk V c t = V c main_arg6 := by
  funext y
  show iblk1 V c 4 t y = _
  unfold iblk1
  rw [View.read_apply]
  show V c main_arg6 _ = V c main_arg6 y
  congr 1
  funext a
  apply Fin.ext
  match a with
  | ⟨0, _⟩ =>
    show win1_4.index t 0 * 3 + 1 * (y 0).val = (y 0).val
    rw [(tile_index t).2.2.2.2.1.1]; omega
  | ⟨1, _⟩ =>
    show win1_4.index t 1 * 128 + 1 * (y 1).val = (y 1).val
    rw [(tile_index t).2.2.2.2.1.2]; omega

/-- and the whole output-layer bias row. -/
theorem b2Blk_eq (c : Dev nD) (t : Fin cfg1.N) : b2Blk V c t = V c main_v25 := by
  funext y
  show iblk1 V c 5 t y = _
  unfold iblk1
  rw [View.read_apply]
  show V c main_v25 _ = V c main_v25 y
  congr 1
  funext a
  apply Fin.ext
  match a with
  | ⟨0, _⟩ =>
    show win1_5.index t 0 * 1 + 1 * (y 0).val = (y 0).val
    rw [(tile_index t).2.2.2.2.2.1.1]; omega
  | ⟨1, _⟩ =>
    show win1_5.index t 1 * 3 + 1 * (y 1).val = (y 1).val
    rw [(tile_index t).2.2.2.2.2.1.2]; omega

end Tiles

/-! ## The running total, tile by tile -/

section Total

variable (V : (c : Dev nD) → (b : Ref sig .tc) → Buf (Elt Ideal) ((c : Thread nD τ).loc b))

/-- What tile `t` stores over a total `acc`: `acc` plus the readouts of the tile's 2000 nodes. -/
theorem tile_step (c : Dev nD) (t : Fin cfg1.N) (t' : Fin 25) (ht : t'.val = t.val) (acc : Vec Ideal S3 .f32) (o : Fin 3) :
    k1_pay2 (F := Ideal) (degBlk V c t) (aggBlk V c t) (w1Blk V c t) (b1Blk V c t) (w2Blk V c t) (b2Blk V c t) acc (ix1 o)
      = acc (ix1 o) + tileSum (nodeAt V c o) t' := by
  refine (tail_payload (degBlk V c t) (aggBlk V c t) (w1Blk V c t) (b1Blk V c t) (w2Blk V c t) (b2Blk V c t) acc o).trans ?_
  refine congrArg (acc (ix1 o) + ·) (Finset.sum_congr rfl fun q _ => ?_)
  show _ = nodeAt V c o (nodeOf t' q)
  unfold nodeAt
  rw [show (fun d => aggBlk V c t (ix2 q d)) = fun d => V c main_v18 (ix2 (nodeOf t' q) d) from
      funext fun d => aggBlk_apply V c t t' ht q d,
    degBlk_apply V c t t' ht q, w1Blk_eq V c t, b1Blk_eq V c t, w2Blk_eq V c t, b2Blk_eq V c t]

/-- After tile `n` the stored total is the specification's running total: the first tile starts from the zero word,
    every later tile adds to what the tile before left. -/
theorem total_eq (c : Dev nD) : ∀ (n : ℕ) (h : n < cfg1.N) (o : Fin 3),
    outsAt1 V c n h (ix1 o) = chain zeroW (nodeAt V c o) n (lt_of_lt_of_eq h N_1)
  | 0, h, o => by
    rw [show outsAt1 V c 0 h = outsAt1 V c (⟨0, h⟩ : Fin cfg1.N).val (⟨0, h⟩ : Fin cfg1.N).isLt from rfl,
      outsAt1_A V c ⟨0, h⟩ rfl]
    refine (congrFun (out_first (F := Ideal) c (grid1.coords ⟨0, h⟩) (ms1_0 ⟨0, h⟩) (hs1_0 ⟨0, h⟩) (ms1_1 ⟨0, h⟩) (hs1_1 ⟨0, h⟩) (ms1_2 ⟨0, h⟩) (hs1_2 ⟨0, h⟩) (ms1_3 ⟨0, h⟩) (hs1_3 ⟨0, h⟩) (ms1_4 ⟨0, h⟩) (hs1_4 ⟨0, h⟩) (ms1_5 ⟨0, h⟩) (hs1_5 ⟨0, h⟩) (ms1_6 ⟨0, h⟩) (hs1_6 ⟨0, h⟩) ((hcond1_0 ⟨0, h⟩).mpr rfl)
      (aggBlk V c ⟨0, h⟩) (degBlk V c ⟨0, h⟩) (w1Blk V c ⟨0, h⟩) (b1Blk V c ⟨0, h⟩) (w2Blk V c ⟨0, h⟩) (b2Blk V c ⟨0, h⟩)) (ix1 o)).trans ?_
    refine (tile_step V c ⟨0, h⟩ ⟨0, by decide⟩ rfl (k1_pay1 (F := Ideal)) o).trans ?_
    rw [tail_zero]
    rfl
  | n + 1, h, o => by
    have hN : cfg1.N = 25 := N_1
    have hB : ¬(⟨n + 1, h⟩ : Fin cfg1.N).val % 25 = 0 := by dsimp only; omega
    rw [show outsAt1 V c (n + 1) h = outsAt1 V c (⟨n + 1, h⟩ : Fin cfg1.N).val (⟨n + 1, h⟩ : Fin cfg1.N).isLt from rfl,
      outsAt1_B V c ⟨n + 1, h⟩ hB]
    dsimp only
    refine (congrFun (out_next (F := Ideal) c (grid1.coords ⟨n + 1, h⟩) (ms1_0 ⟨n + 1, h⟩) (hs1_0 ⟨n + 1, h⟩) (ms1_1 ⟨n + 1, h⟩) (hs1_1 ⟨n + 1, h⟩) (ms1_2 ⟨n + 1, h⟩) (hs1_2 ⟨n + 1, h⟩) (ms1_3 ⟨n + 1, h⟩) (hs1_3 ⟨n + 1, h⟩) (ms1_4 ⟨n + 1, h⟩) (hs1_4 ⟨n + 1, h⟩) (ms1_5 ⟨n + 1, h⟩) (hs1_5 ⟨n + 1, h⟩) (ms1_6 ⟨n + 1, h⟩) (hs1_6 ⟨n + 1, h⟩) (fun hh => hB ((hcond1_0 ⟨n + 1, h⟩).mp hh))
      (aggBlk V c ⟨n + 1, h⟩) (degBlk V c ⟨n + 1, h⟩) (w1Blk V c ⟨n + 1, h⟩) (b1Blk V c ⟨n + 1, h⟩) (w2Blk V c ⟨n + 1, h⟩) (b2Blk V c ⟨n + 1, h⟩) (outsAt1 V c n (Nat.lt_of_succ_lt h))) (ix1 o)).trans ?_
    refine (tile_step V c ⟨n + 1, h⟩ ⟨n + 1, by omega⟩ rfl (outsAt1 V c n (Nat.lt_of_succ_lt h)) o).trans ?_
    rw [total_eq c n (Nat.lt_of_succ_lt h) o]
    rfl

/-- After the last tile the stored 3-vector is the running total over all 25 tiles. -/
theorem total_last (c : Dev nD) (t : Fin cfg1.N) (h24 : t.val = 24) :
    outsAt1 V c t.val t.isLt
      = fun i : S3.Idx => chain zeroW (nodeAt V c ⟨(i 0).val, (i 0).isLt⟩) 24 (by decide) := by
  funext i
  obtain ⟨o, rfl⟩ : ∃ o : Fin 3, i = ix1 o := ⟨i 0, eq_ix1 i⟩
  rw [total_eq V c t.val t.isLt o]
  obtain ⟨n, hn⟩ := t
  dsimp only at h24
  subst h24
  rfl

end Total

end Run

/-- The array written back after the last tile holds the running total over all 25 tiles. -/
theorem tail_array (V : (c : Dev nD) → (b : Ref sig .tc) → Buf (Elt Ideal) ((c : Thread nD τ).loc b)) (c : Dev nD) :
    (dat1 (F := Ideal) V c).arrAt 6 cfg1.N
      = fun i => chain zeroW (nodeAt V c ⟨(i 0).val, (i 0).isLt⟩) 24 (by decide) := by
  refine (dat1 (F := Ideal) V c).arrAt_eq_of_cover 6 _ (fun t hf => ?_) (fun i => ?_)
  · -- the one write-back, after tile 24, writes the stored total; block 0 of the 3-vector is the whole array
    have h24 : t.val = 24 := by
      have hm := (flush1_6 t).mp hf
      have hlt : t.val < 25 := lt_of_lt_of_eq t.isLt N_1
      omega
    show (cfg1.win 6).cut (grid1.coords t) ((dat1 (F := Ideal) V c).after 6 t) = _
    rw [after1_6, total_last V c t h24]
    have hz' : (fun a => win1_6.index t a * main_v26.ty.shape.size a) = fun _ => 0 :=
      funext fun a => by
        match a with
        | ⟨0, _⟩ => show win1_6.index t 0 * 3 = 0; rw [(tile_index t).2.2.2.2.2.2]
    exact (Memref.read_access_unit_zero (Elt Ideal) main_v26 hz' (fun a => by rw [congrFun hz' a]; simp)
      (fun i => chain zeroW (nodeAt V c ⟨(i 0).val, (i 0).isLt⟩) 24 (by decide))).symm
  · -- every index of the 3-vector lies in that block
    obtain ⟨tl, hl⟩ : ∃ t : Fin cfg1.N, t.val = 24 := ⟨⟨24, by decide⟩, rfl⟩
    refine ⟨tl, (flush1_6 tl).mpr (by rw [hl]), ?_⟩
    show i ∈ ((View.whole main_v26).slice (win1_6.rect tl)).set
    rw [View.set_slice_whole, Rect.mem_set_unit]
    intro a
    have h0 : (i 0 : Nat) < 3 := (i 0).isLt
    match a with
    | ⟨0, _⟩ =>
      show win1_6.index tl 0 * 3 ≤ (i 0 : Nat) ∧ (i 0 : Nat) < win1_6.index tl 0 * 3 + 3
      rw [(tile_index tl).2.2.2.2.2.2]; omega

end Cert.Readout.Tail

end
-- ==== Proof.Glue.lean ====
/-
  Between the two kernels both programs run the same chain: the edge list with a self loop appended for every node,
  negative source indices wrapped, the source rows gathered, added into their target rows, and the targets counted.
  It is named here once (`srcOf`, `dstOf`, `aggOf`, `degOf`) and never opened: the kernel program applies it to the
  array its first kernel left, the reference to its own affine stage, and those two arrays are equal.
  So the arrays the second kernel is entered with are the reference's aggregated rows and in-degrees, its weights
  and its biases laid out as rows.
-/
import proofs.«105827_j33921651703918_1_alg».proof.Proof.Gen.KernelIdeal.Frame
import proofs.«105827_j33921651703918_1_alg».proof.Proof.Gen.ReferenceIdeal.Read
import proofs.«105827_j33921651703918_1_alg».proof.Proof.Spec
import proofs.«105827_j33921651703918_1_alg».proof.Proof.LinTile
import proofs.«105827_j33921651703918_1_alg».proof.Proof.RefRead
import proofs.«105827_j33921651703918_1_alg».proof.Proof.TailRun
import Idealize.ShloMosaic.Lib.StableHlo.Run
import Idealize.ShloMosaic.Lib.ValueLayout
import Idealize.ShloMosaic.Lib.Pipeline.Value

noncomputable section

open scoped BigOperators

namespace Cert.Readout.Glue

open Cert.KernelIdeal Cert.KernelIdeal.Gen Cert.Readout
open Idealize.ShloMosaic Idealize.ShloMosaic.TcCoe Idealize.ShloMosaic.ValueIdx Idealize.SL.Sem Idealize.ShloMosaic.StableHlo

variable {F : FTy → Type} [FloatOps F]

/-- Every edge's source node, then every node once more (its self loop). -/
def srcOf (ei : (⟨S2x600000, .i32⟩ : BufTy).Contents (Elt F)) : (⟨S650000, .i32⟩ : BufTy).Contents (Elt F) :=
  concatenate S650000 0 [⟨S600000, shapeCast _ (extractStridedSlice S1x600000 ![0, 0] ei slices_S2x600000_S1x600000_0_0) shapeCasts_S1x600000_S600000⟩, ⟨S50000, iotaInDim S50000 32 0⟩] concatenates_S600000_S50000_S650000_d0

/-- Every edge's target node, then every node once more. -/
def dstOf (ei : (⟨S2x600000, .i32⟩ : BufTy).Contents (Elt F)) : (⟨S650000, .i32⟩ : BufTy).Contents (Elt F) :=
  concatenate S650000 0 [⟨S600000, shapeCast _ (extractStridedSlice S1x600000 ![1, 0] ei slices_S2x600000_S1x600000_1_0) shapeCasts_S1x600000_S600000⟩, ⟨S50000, iotaInDim S50000 32 0⟩] concatenates_S600000_S50000_S650000_d0

/-- The rows of `y` at the (wrapped) sources, added into the rows of a zero array at the targets. -/
def aggOf (y : (⟨S50000x128, .f32⟩ : BufTy).Contents (Elt F)) (src dst : (⟨S650000, .i32⟩ : BufTy).Contents (Elt F)) :
    (⟨S50000x128, .f32⟩ : BufTy).Contents (Elt F) :=
  Host.scatterAdd scatter_S50000x128_S650000x1_S650000x128_1_0_0_1
    (broadcastInDim S50000x128 ![] bcast_S_S50000x128 (constant S_ .f32 0x00000000#32))
    (broadcastInDim S650000x1 ![0] bcast_S650000_S650000x1_0 dst)
    (Host.gather gather_S50000x128_S650000x1_S650000x128_1_0_n_n_0_1_1128 y
      (broadcastInDim S650000x1 ![0] bcast_S650000_S650000x1_0
        (select (cmpi .slt src (broadcastInDim S650000 ![] bcast_S_S650000 (constantI S_ 32 0#32)))
          (addi src (broadcastInDim S650000 ![] bcast_S_S650000 (constantI S_ 32 50000#32))) src)))

/-- How many times each node is a target: ones added into a zero vector at the targets. -/
def degOf (dst : (⟨S650000, .i32⟩ : BufTy).Contents (Elt F)) : (⟨S50000, .f32⟩ : BufTy).Contents (Elt F) :=
  Host.scatterAdd scatter_S50000_S650000x1_S650000_n_0_0_1
    (broadcastInDim S50000 ![] bcast_S_S50000 (constant S_ .f32 0x00000000#32))
    (broadcastInDim S650000x1 ![0] bcast_S650000_S650000x1_0 dst)
    (broadcastInDim S650000 ![] bcast_S_S650000 (constant S_ .f32 0x3F800000#32))

/-! ## The reference's stages are the chain of its own affine stage -/

theorem ref_agg (x0 : (⟨S50000x128, .f32⟩ : BufTy).Contents (Elt F)) (x1 : (⟨S2x600000, .i32⟩ : BufTy).Contents (Elt F))
    (x2 : (⟨S128x128, .f32⟩ : BufTy).Contents (Elt F)) (x3 : (⟨S128, .f32⟩ : BufTy).Contents (Elt F)) :
    Cert.ReferenceIdeal.Read.val_main_v21 (F := F) x0 x1 x2 x3
      = aggOf (Cert.ReferenceIdeal.Read.val_main_v11 (F := F) x0 x2 x3) (srcOf x1) (dstOf x1) := rfl

theorem ref_deg (x1 : (⟨S2x600000, .i32⟩ : BufTy).Contents (Elt F)) :
    Cert.ReferenceIdeal.Read.val_main_v25 (F := F) x1 = degOf (dstOf x1) := rfl

/-! ## What each kernel is entered with -/

section entry
variable (m : (ℓ : Loc nD τ sig) → Buf (Elt F) ℓ) (ρ : Dev nD → PrngReg) (c : Dev nD)

theorem first_x : V1 m ρ c main_arg0 = (m ((c.tc : Thread nD τ).loc main_arg0)) := by
  show StableHlo.after hostOps0 (W0 m ρ c) (Proc.devRef .tc main_arg0) = _
  after_results
theorem first_w : V1 m ρ c main_arg2 = (m ((c.tc : Thread nD τ).loc main_arg2)) := by
  show StableHlo.after hostOps0 (W0 m ρ c) (Proc.devRef .tc main_arg2) = _
  after_results
theorem first_b : V1 m ρ c main_v7 = shapeCast S1x128 (m ((c.tc : Thread nD τ).loc main_arg3)) shapeCasts_S128_S1x128 := by
  show StableHlo.after hostOps0 (W0 m ρ c) (Proc.devRef .tc main_v7) = _
  after_results; rfl
theorem first_src : W1 m ρ c (Proc.devRef .tc main_v3) = srcOf (m ((c.tc : Thread nD τ).loc main_arg1)) := by
  show StableHlo.after hostOps0 (W0 m ρ c) (Proc.devRef .tc main_v3) = _
  after_results; rfl
theorem first_dst : W1 m ρ c (Proc.devRef .tc main_v6) = dstOf (m ((c.tc : Thread nD τ).loc main_arg1)) := by
  show StableHlo.after hostOps0 (W0 m ρ c) (Proc.devRef .tc main_v6) = _
  after_results; rfl

/-- The second kernel's aggregated rows: the chain of what the first kernel left. -/
theorem second_agg : V3 m ρ c main_v18 = aggOf (W2 m ρ c (Proc.devRef .tc main_v8)) (W2 m ρ c (Proc.devRef .tc main_v3)) (W2 m ρ c (Proc.devRef .tc main_v6)) := by
  show StableHlo.after hostOps1 (W2 m ρ c) (Proc.devRef .tc main_v18) = _
  after_results; rfl
/-- Its in-degrees, as a column. -/
theorem second_deg : V3 m ρ c main_v23 = shapeCast S50000x1 (degOf (W2 m ρ c (Proc.devRef .tc main_v6))) shapeCasts_S50000_S50000x1 := by
  show StableHlo.after hostOps1 (W2 m ρ c) (Proc.devRef .tc main_v23) = _
  after_results; rfl
theorem second_b1 : V3 m ρ c main_v24 = shapeCast S1x128 (W2 m ρ c (Proc.devRef .tc main_arg5)) shapeCasts_S128_S1x128 := by
  show StableHlo.after hostOps1 (W2 m ρ c) (Proc.devRef .tc main_v24) = _
  after_results; rfl
theorem second_b2 : V3 m ρ c main_v25 = shapeCast S1x3 (W2 m ρ c (Proc.devRef .tc main_arg7)) shapeCasts_S3_S1x3 := by
  show StableHlo.after hostOps1 (W2 m ρ c) (Proc.devRef .tc main_v25) = _
  after_results; rfl
theorem second_w1 : V3 m ρ c main_arg4 = W2 m ρ c (Proc.devRef .tc main_arg4) := by
  show StableHlo.after hostOps1 (W2 m ρ c) (Proc.devRef .tc main_arg4) = _
  after_results
theorem second_w2 : V3 m ρ c main_arg6 = W2 m ρ c (Proc.devRef .tc main_arg6) := by
  show StableHlo.after hostOps1 (W2 m ρ c) (Proc.devRef .tc main_arg6) = _
  after_results

/-- A buffer the first kernel does not write, and no operation before it, is as launched when the second is entered. -/
theorem kept_arg4 : W2 m ρ c (Proc.devRef .tc main_arg4) = (m ((c.tc : Thread nD τ).loc main_arg4)) := by
  rw [W2_of_ne m ρ c main_arg4 (by decide)]
  show StableHlo.after hostOps0 (W0 m ρ c) (Proc.devRef .tc main_arg4) = _
  after_results
theorem kept_arg5 : W2 m ρ c (Proc.devRef .tc main_arg5) = (m ((c.tc : Thread nD τ).loc main_arg5)) := by
  rw [W2_of_ne m ρ c main_arg5 (by decide)]
  show StableHlo.after hostOps0 (W0 m ρ c) (Proc.devRef .tc main_arg5) = _
  after_results
theorem kept_arg6 : W2 m ρ c (Proc.devRef .tc main_arg6) = (m ((c.tc : Thread nD τ).loc main_arg6)) := by
  rw [W2_of_ne m ρ c main_arg6 (by decide)]
  show StableHlo.after hostOps0 (W0 m ρ c) (Proc.devRef .tc main_arg6) = _
  after_results
theorem kept_arg7 : W2 m ρ c (Proc.devRef .tc main_arg7) = (m ((c.tc : Thread nD τ).loc main_arg7)) := by
  rw [W2_of_ne m ρ c main_arg7 (by decide)]
  show StableHlo.after hostOps0 (W0 m ρ c) (Proc.devRef .tc main_arg7) = _
  after_results
theorem kept_src : W2 m ρ c (Proc.devRef .tc main_v3) = srcOf (m ((c.tc : Thread nD τ).loc main_arg1)) :=
  (W2_of_ne m ρ c main_v3 (by decide)).trans (first_src m ρ c)
theorem kept_dst : W2 m ρ c (Proc.devRef .tc main_v6) = dstOf (m ((c.tc : Thread nD τ).loc main_arg1)) :=
  (W2_of_ne m ρ c main_v6 (by decide)).trans (first_dst m ρ c)
/-- The array the first kernel wrote is what its write-backs leave. -/
theorem first_out : W2 m ρ c (Proc.devRef .tc main_v8) = (dat0 (V1 m ρ) c).arrAt 3 cfg0.N := W2_arr m ρ c 3

end entry

/-! ## At the ideal instance: the second kernel's arrays are the reference's stages -/

section ideal
variable (m : (ℓ : Loc nD τ sig) → Buf (Elt Ideal) ℓ) (ρ : Dev nD → PrngReg) (c : Dev nD)

/-- The array the first kernel leaves is the reference's affine stage of the same arguments. -/
theorem lin_eq : W2 m ρ c (Proc.devRef .tc main_v8) = Cert.ReferenceIdeal.Read.val_main_v11 (F := Ideal) (m ((c.tc : Thread nD τ).loc main_arg0)) (m ((c.tc : Thread nD τ).loc main_arg2)) (m ((c.tc : Thread nD τ).loc main_arg3)) := by
  rw [first_out, Lin.lin_array]
  funext i
  obtain ⟨r, j, rfl⟩ : ∃ (r : Fin 50000) (j : Fin 128), i = ix2 r j := ⟨i 0, i 1, eq_ix2 i⟩
  rw [Ref.ref_lin, first_x, first_w, first_b]
  show linAt _ _ _ r j = _
  unfold linAt
  exact congrArg (_ + ·) (shapeCast_a_1a_apply _ _ 0 j)

/-- So the second kernel's aggregated rows are the reference's, -/
theorem agg_eq : V3 m ρ c main_v18 = Cert.ReferenceIdeal.Read.val_main_v21 (F := Ideal) (m ((c.tc : Thread nD τ).loc main_arg0)) (m ((c.tc : Thread nD τ).loc main_arg1)) (m ((c.tc : Thread nD τ).loc main_arg2)) (m ((c.tc : Thread nD τ).loc main_arg3)) := by
  rw [second_agg, kept_src, kept_dst, lin_eq, ref_agg]

/-- its in-degree column holds the reference's in-degrees, -/
theorem deg_eq (r : Fin 50000) : V3 m ρ c main_v23 (ix2 r 0) = Cert.ReferenceIdeal.Read.val_main_v25 (F := Ideal) (m ((c.tc : Thread nD τ).loc main_arg1)) (ix1 r) := by
  rw [second_deg, kept_dst, ref_deg]
  refine shapeCast_apply _ _ _ _ ?_
  rw [Shape.rowMajor_val_two, Shape.rowMajor_val_one]
  show r.val = r.val * 1 + 0
  omega

/-- and its weights and bias rows are the arguments. -/
theorem w1_eq : V3 m ρ c main_arg4 = (m ((c.tc : Thread nD τ).loc main_arg4)) := (second_w1 m ρ c).trans (kept_arg4 m ρ c)
theorem w2_eq : V3 m ρ c main_arg6 = (m ((c.tc : Thread nD τ).loc main_arg6)) := (second_w2 m ρ c).trans (kept_arg6 m ρ c)
theorem b1_eq (k : Fin 128) : V3 m ρ c main_v24 (ix2 0 k) = (m ((c.tc : Thread nD τ).loc main_arg5)) (ix1 k) := by
  rw [second_b1, kept_arg5]; exact shapeCast_a_1a_apply _ _ 0 k
theorem b2_eq (o : Fin 3) : V3 m ρ c main_v25 (ix2 0 o) = (m ((c.tc : Thread nD τ).loc main_arg7)) (ix1 o) := by
  rw [second_b2, kept_arg7]; exact shapeCast_a_1a_apply _ _ 0 o

/-- Node `r`'s readout as the second kernel reads it is the readout of the reference's aggregated row and in-degree. -/
theorem node_eq (o : Fin 3) (r : Fin 50000) :
    Tail.nodeAt (V3 m ρ) c o r
      = nodeOut (fun d => Cert.ReferenceIdeal.Read.val_main_v21 (F := Ideal) (m ((c.tc : Thread nD τ).loc main_arg0)) (m ((c.tc : Thread nD τ).loc main_arg1)) (m ((c.tc : Thread nD τ).loc main_arg2)) (m ((c.tc : Thread nD τ).loc main_arg3)) (ix2 r d))
          (Cert.ReferenceIdeal.Read.val_main_v25 (F := Ideal) (m ((c.tc : Thread nD τ).loc main_arg1)) (ix1 r)) (m ((c.tc : Thread nD τ).loc main_arg4)) (fun k => (m ((c.tc : Thread nD τ).loc main_arg5)) (ix1 k)) (m ((c.tc : Thread nD τ).loc main_arg6))
          (fun o' => (m ((c.tc : Thread nD τ).loc main_arg7)) (ix1 o')) o := by
  unfold Tail.nodeAt
  have hb1 : (fun k => V3 m ρ c main_v24 (ix2 0 k)) = fun k => (m ((c.tc : Thread nD τ).loc main_arg5)) (ix1 k) := funext (b1_eq m ρ c)
  have hb2 : (fun o' => V3 m ρ c main_v25 (ix2 0 o')) = fun o' => (m ((c.tc : Thread nD τ).loc main_arg7)) (ix1 o') := funext (b2_eq m ρ c)
  rw [agg_eq, deg_eq, w1_eq, w2_eq, hb1, hb2]

/-- The kernel program's result array is the reference's result of the same arguments: the running total over the
    25 tiles is the zero word plus the sum over all nodes. -/
theorem result_eq : W4 m ρ c (Proc.devRef .tc main_v26)
    = Cert.ReferenceIdeal.Read.val_main_v42 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show W4 m ρ c (Proc.devRef .tc main_v26) = (dat1 (V3 m ρ) c).arrAt 6 cfg1.N from W4_arr m ρ c 6, Tail.tail_array]
  funext i
  obtain ⟨o, rfl⟩ : ∃ o : Fin 3, i = ix1 o := ⟨i 0, eq_ix1 i⟩
  rw [Ref.ref_out]
  show chain zeroW (Tail.nodeAt (V3 m ρ) c o) 24 _ = _
  rw [chain_last]
  exact congrArg (zeroW + ·) (Finset.sum_congr rfl fun r _ => node_eq m ρ c o r)

end ideal

end Cert.Readout.Glue

end
-- ==== Proof.lean ====
/-
  A graph layer with mean aggregation and a summed readout, as one kernel program and as a plain array program.

  Both compute, for each of the three outputs `o`,

      z + Σ_r ( Σ_k max(Σ_d (s[r, d] / max(n[r], 1)) · W1[k, d] + b1[k], 0) · W2[o, k] + b2[o] )

  over the 50000 nodes `r`, where `z` is the zero word, `s` the rows of `y = x · Wᵀ + b` gathered along the edges
  (a self loop appended for every node) and added into their target nodes, and `n` the number of times a node is a
  target. Over the extended reals a change of float format is the identity and a matrix product into a zero
  accumulator is the plain sum of products, so the two programs differ in three ways only: the first kernel
  produces `y` tile by tile (25 tiles of 2000 rows) where the array program has one product; the clamp of the
  in-degree is taken on a column here and on a vector there; and the second kernel adds the nodes tile by tile
  into a running total where the array program has one sum. The first two are the same function index by
  index; the third is the associativity of addition (Proof/Spec.lean, `chain_last`). Nothing needs the inputs to
  be finite, and the zero word is never evaluated.

  The modules: Proof/Spec.lean (the functions and the regrouping of the sum), Proof/RefRead.lean (the array
  program read against them), Proof/LinTile.lean (the first kernel's tiles fill `y`), Proof/TailTile.lean and
  Proof/TailRun.lean (the second kernel's tile arithmetic and its running total), Proof/Glue.lean (the shared
  gather and scatter-add chain carried as one function, and the two results identified), Proof/KernelRun.lean
  (the kernel program's run with its result array named).
-/
import proofs.«105827_j33921651703918_1_alg».proof.Defs
import proofs.«105827_j33921651703918_1_alg».proof.Proof.Gen.Kernel
import proofs.«105827_j33921651703918_1_alg».proof.Proof.Gen.Kernel.Skeleton
import proofs.«105827_j33921651703918_1_alg».proof.Proof.Gen.Kernel.Launch
import proofs.«105827_j33921651703918_1_alg».proof.Proof.Gen.Kernel.Points
import proofs.«105827_j33921651703918_1_alg».proof.Proof.Gen.Kernel.Frame
import proofs.«105827_j33921651703918_1_alg».proof.Proof.Gen.KernelIdeal
import proofs.«105827_j33921651703918_1_alg».proof.Proof.Gen.KernelIdeal.Skeleton
import proofs.«105827_j33921651703918_1_alg».proof.Proof.Gen.KernelIdeal.Launch
import proofs.«105827_j33921651703918_1_alg».proof.Proof.Gen.KernelIdeal.Points
import proofs.«105827_j33921651703918_1_alg».proof.Proof.Gen.KernelIdeal.Frame
import proofs.«105827_j33921651703918_1_alg».proof.Proof.Gen.ReferenceIdeal
import proofs.«105827_j33921651703918_1_alg».proof.Proof.Gen.Pre_finite_inputs
import proofs.«105827_j33921651703918_1_alg».proof.Proof.Gen.ReferenceIdeal.Run
import proofs.«105827_j33921651703918_1_alg».proof.Proof.Gen.ReferenceIdeal.Read
import proofs.«105827_j33921651703918_1_alg».proof.Proof.KernelRun
import proofs.«105827_j33921651703918_1_alg».proof.Proof.Glue
import Idealize.ShloMosaic.Adequacy
import Idealize.ShloMosaic.Init

noncomputable section

namespace Cert.Proof

open Idealize.ShloMosaic Idealize.SL.Sem

/-- The kernel program runs to the end and leaves its arguments alone, at the word level and over the extended reals. -/
theorem frame_k : Cert.frame_Kernel := fun m ρ _ => Cert.Kernel.Gen.frame m ρ
theorem frame_ki : Cert.frame_KernelIdeal := fun m ρ _ => Cert.KernelIdeal.Gen.frame m ρ
/-- The array program's run, its result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Nothing was rewritten to read the kernel program over the extended reals. -/
theorem preserves : Cert.preserves_Kernel_KernelIdeal := trivial

/-- From memories that agree on the arguments the kernel program ends with its result array at the running total
    over the 25 tiles and the array program with the zero word plus the sum over all nodes: the same three numbers. -/
theorem algebraic : Cert.algebraic_KernelIdeal_ReferenceIdeal := by
  intro m ρ m' ρ' _ hagree
  refine ⟨fun c => Cert.KernelIdeal.Gen.W4 m ρ c (Proc.devRef .tc Cert.KernelIdeal.main_v26), Cert.KernelIdeal.Gen.run_result (F := Ideal) m ρ, ?_⟩
  refine (θ_run Cert.ReferenceIdeal.defs _ _).mono (fun _ h c => ⟨(h c).1.trans ?_, (h c).2⟩) (Cert.ReferenceIdeal.Value.run (F := Ideal) m' ρ')
  rw [Cert.ReferenceIdeal.Read.val_main_v42_eq, (hagree c).1, (hagree c).2.1, (hagree c).2.2.1, (hagree c).2.2.2.1, (hagree c).2.2.2.2.1, (hagree c).2.2.2.2.2.1, (hagree c).2.2.2.2.2.2.1, (hagree c).2.2.2.2.2.2.2]
  exact (Cert.Readout.Glue.result_eq m ρ c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
